-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) (main_arg1 : FVec F S64x512x512 .f32) (main_arg2 : IVec S64x512x512 32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512x512 .f32 := Host.floor main_arg1
  let main_v10 : IVec S64x512x512 1 := cmpf .oeq main_arg1 main_v9
  let main_c_2 : IVec S_ 1 := constantI S_ 1 1#1
  let main_v11 : IVec S_ 1 := (fun x v => Host.reduce IntOp.andi x v reducesTo_S64x512x512_S_d0_1_2 h_S_) main_v10 main_c_2
  let main_v12 : IVec S_ 1 := andi main_v8 main_v11
  main_v12
-- ==== Kernel.lean ====
abbrev S64x512x512 : Shape := ⟨3, ![64, 512, 512]⟩
abbrev S10 : Shape := ⟨1, ![10]⟩
abbrev S1x128 : Shape := ⟨2, ![1, 128]⟩
abbrev S2x512x512 : Shape := ⟨3, ![2, 512, 512]⟩
abbrev S2x512 : Shape := ⟨2, ![2, 512]⟩
abbrev S2 : Shape := ⟨1, ![2]⟩
abbrev S2x1 : Shape := ⟨2, ![2, 1]⟩
abbrev S1 : Shape := ⟨1, ![1]⟩
abbrev S1x1 : Shape := ⟨2, ![1, 1]⟩
abbrev S1x10 : Shape := ⟨2, ![1, 10]⟩
abbrev S_ : Shape := ⟨0, ![]⟩

abbrev nBuf : Space → Nat
  | .hbm => 24
  | .vmem => 10
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .i32⟩
  | .hbm, ⟨3, _⟩ => ⟨S10, .f32⟩
  | .hbm, ⟨4, _⟩ => ⟨S1x128, .f32⟩
  | .hbm, ⟨5, _⟩ => ⟨S1x128, .f32⟩
  | .hbm, ⟨6, _⟩ => ⟨S1x10, .f32⟩
  | .hbm, ⟨7, _⟩ => ⟨S10, .f32⟩
  | .hbm, ⟨8, _⟩ => ⟨S1x10, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S_, .f32⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .i32⟩
  | .local _ .vmem, ⟨5, _⟩ => ⟨S2x512x512, .i32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v361 : BitVec 1 := Scalar.cmpi .eq arg0 c31_i32
  let v362 : BitVec 32 := Scalar.extui v361
  let c0_i32_170 : BitVec 32 := 0#32
  let v363 : BitVec 1 := Scalar.cmpi .ne v362 c0_i32_170
  v363

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2x512x512_S2x512x512_0_0_0 : ∀ a, (![0, 0, 0] : Fin 3 → Nat) a + S2x512x512.size a ≤ S2x512x512.size a
  h_S2x512x512 : 0 < S2x512x512.numel
  iota_S1x128_d1_w32 : S1x128.Iotas .tc 32 [1]
  reduces_S2x512x512_S2x512 : S2x512x512.Reduces [2] S2x512
  reduces_S2x512_S2 : S2x512.Reduces [1] S2
  shapeCasts_S2_S2x1 : S2.ShapeCasts S2x1
  reduces_S2x1_S1 : S2x1.Reduces [0] S1
  shapeCasts_S1_S1x1 : S1.ShapeCasts S1x1
  natLt_1_32 : 1 < 32
  broadcasts_S1x1_S1x128 : S1x1.Broadcasts S1x128
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S64x512x512.size a
  hwx0_0 : ∀ i : grid0.Coords, EltTy.bits .f32 = 32 ∨ (Rect.block (s := S64x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S64x512x512.size a
  hwx0_2 : ∀ i : grid0.Coords, EltTy.bits .i32 = 32 ∨ (Rect.block (s := S64x512x512) S2x512x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

abbrev win0_0 : Pipeline.Window sig grid0 :=
  Pipeline.Window.ofSpec (Memref.whole main_arg0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x512x512 : Shape := ⟨3, ![64, 512, 512]⟩
abbrev S10 : Shape := ⟨1, ![10]⟩
abbrev S_ : Shape := ⟨0, ![]⟩
abbrev S16777216 : Shape := ⟨1, ![16777216]⟩
abbrev S11 : Shape := ⟨1, ![11]⟩
abbrev S16777216x1 : Shape := ⟨2, ![16777216, 1]⟩

abbrev nBuf : Space → Nat
  | .hbm => 43
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .i32⟩
  | .hbm, ⟨3, _⟩ => ⟨S10, .f32⟩
  | .hbm, ⟨4, _⟩ => ⟨S64x512x512, .i32⟩
  | .hbm, ⟨5, _⟩ => ⟨S_, .i32⟩
  | .hbm, ⟨6, _⟩ => ⟨S64x512x512, .i32⟩
  | .hbm, ⟨7, _⟩ => ⟨S64x512x512, .i1⟩
  | .hbm, ⟨8, _⟩ => ⟨S_, .i32⟩
  | .hbm, ⟨9, _⟩ => ⟨S_, .i32⟩
  | .hbm, ⟨10, _⟩ => ⟨S64x512x512, .i32⟩
  | .hbm, ⟨11, _⟩ => ⟨S64x512x512, .i32⟩
  | .hbm, ⟨12, _⟩ => ⟨S16777216, .i32⟩
  | .hbm, ⟨13, _⟩ => ⟨S64x512x512, .f32⟩
  | .hbm, ⟨14, _⟩ => ⟨S64x512x512, .f32⟩
  | .hbm, ⟨15, _⟩ => ⟨S16777216, .f32⟩
  | .hbm, ⟨16, _⟩ => ⟨S_, .f32⟩
  | .hbm, ⟨17, _⟩ => ⟨S11, .f32⟩
  | .hbm, ⟨18, _⟩ => ⟨S16777216x1, .i32⟩
  | .hbm, ⟨19, _⟩ => ⟨S11, .f32⟩
  | .hbm, ⟨20, _⟩ => ⟨S10, .f32⟩
  | .hbm, ⟨21, _⟩ => ⟨S_, .f32⟩
  | .hbm, ⟨22, _⟩ => ⟨S64x512x512, .f32⟩
  | .hbm, ⟨23, _⟩ => ⟨S16777216, .f32⟩
  | .hbm, ⟨24, _⟩ => ⟨S_, .f32⟩
  | .hbm, ⟨25, _⟩ => ⟨S11, .f32⟩
  | .hbm, ⟨26, _⟩ => ⟨S16777216x1, .i32⟩
  | .hbm, ⟨27, _⟩ => ⟨S11, .f32⟩
  | .hbm, ⟨28, _⟩ => ⟨S10, .f32⟩
  | .hbm, ⟨29, _⟩ => ⟨S_, .f32⟩
  | .hbm, ⟨30, _⟩ => ⟨S10, .f32⟩
  | .hbm, ⟨31, _⟩ => ⟨S10, .i1⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  shapeCasts_S64x512x512_S16777216 : S64x512x512.ShapeCasts S16777216
  bcast_S_S11 : S_.BroadcastsInDim S11 (![] : Fin 0 → Fin S11.rank)
  bcast_S16777216_S16777216x1_0 : S16777216.BroadcastsInDim S16777216x1 (![0] : Fin 1 → Fin S16777216x1.rank)
  slices_S11_S10_0 : S11.Slices ![0] S10
  bcast_S_S10 : S_.BroadcastsInDim S10 (![] : Fin 0 → Fin S10.rank)
  reducesTo_S10_S_d0 : S10.ReducesTo [0] S_
  h_S_ : 0 < S_.numel
  scatter_S11_S16777216x1_S16777216_n_0_0_1_wf : ScatterDims.WF S11 S16777216x1 S16777216 [] [0] [0] 1

variable [Facts₀]

def scatter_S11_S16777216x1_S16777216_n_0_0_1 : ScatterDims S11 S16777216x1 S16777216 where
  updateWindowDims := []
  insertedWindowDims := [0]
  scatterDimsToOperandDims := [0]
  indexVectorDim := 1
  wf := scatter_S11_S16777216x1_S16777216_n_0_0_1_wf

class Facts : Prop extends Facts₀ where

variable [Facts]
-- ==== Proof.LibWholeStoreChain.lean ====
/-
  A buffer stored whole several times: what a later load reads.

  When every store of a sequence writes the WHOLE buffer (offset zero, the buffer's own extents), the latest
  store alone decides the contents: a load of the whole buffer after the stores (their list given latest
  first) reads the latest store's payload, whatever the earlier stores were. The one-store case is the
  library's; this is the same statement for a list of any length.
-/
import Idealize.ShloMosaic.Lib.Pipeline.Value

noncomputable section

namespace Idealize.ShloMosaic.View

open Idealize.ShloMosaic

variable {Val : EltTy → Type} {S : Shape} {e : EltTy}

/-- A load through the whole buffer of what a list of stores left, the latest of them through the whole buffer,
    reads the latest store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.HistSpec.lean ====
/-
  The masked per-class histogram that both programs compute.

  A pixel `p` of the [64, 512, 512] arrays is a HIT of class `k` (k = 0 … 9) when its mask word is 1 and its
  target is exactly the class value `k` (the real number the f32 word of `k.0` denotes). For each class the
  two quantities are the sum of the squared errors `(o p - t p)²` over the hits and the number of hits. The
  blockwise forms below are the same sums over one [2, 512, 512] block, and one update of a 1 × 128 lane
  accumulator adds a block's total into lane `k` only: `acc + total · [lane = k]`.
-/
import Idealize.ShloMosaic.PureOps.Ideal
import Idealize.ShloMosaic.Lib.ValueIdx

noncomputable section

namespace Cert.Hist

open Idealize.ShloMosaic Idealize.ShloMosaic.ValueIdx

/-- The whole arrays, one grid point's block of them, the lane accumulator, the ten classes. -/
abbrev SArr : Shape := ⟨3, ![64, 512, 512]⟩
abbrev SBlk : Shape := ⟨3, ![2, 512, 512]⟩
abbrev SLane : Shape := ⟨2, ![1, 128]⟩
abbrev SCls : Shape := ⟨1, ![10]⟩

/-- The f32 word of the class value `k.0`. -/
def classWord : Fin 10 → BitVec 32 :=
  ![0x00000000#32, 0x3F800000#32, 0x40000000#32, 0x40400000#32, 0x40800000#32,
    0x40A00000#32, 0x40C00000#32, 0x40E00000#32, 0x41000000#32, 0x41100000#32]

/-- The class value as an extended real. -/
def classVal (k : Fin 10) : EReal := Ideal.ofBits .f32 (classWord k)

/-- The squared error of one pixel. -/
def sqErr (o t : EReal) : EReal := (o - t) * (o - t)

open Classical in
/-- The squared errors of a family of pixels summed over those whose mask word is 1 and whose target is `v`. -/
def hitSum {ι : Type} [Fintype ι] (v : EReal) (o t : ι → EReal) (mk : ι → BitVec 32) : EReal :=
  ∑ p, if mk p = 1#32 ∧ t p = v then sqErr (o p) (t p) else 0

open Classical in
/-- The number of those pixels. -/
def hitCnt {ι : Type} [Fintype ι] (v : EReal) (t : ι → EReal) (mk : ι → BitVec 32) : EReal :=
  ∑ p, if mk p = 1#32 ∧ t p = v then 1 else 0

/-- The per-class sums and counts of the whole arrays, as ten-vectors. -/
def classSums (o t : SArr.Idx → EReal) (mk : SArr.Idx → BitVec 32) : SCls.Idx → EReal :=
  fun i => hitSum (classVal (i 0)) o t mk
def classCnts (t : SArr.Idx → EReal) (mk : SArr.Idx → BitVec 32) : SCls.Idx → EReal :=
  fun i => hitCnt (classVal (i 0)) t mk

end Cert.Hist

end
-- ==== Proof.HistSteps.lean ====
/-
  One update of the lane accumulators, as the kernel body spells it, and what it is at an index.

  The body forms, for a class with float word `cw` and lane word `lw`: the mask "mask word = 1 and target =
  the class value"; the block's squared errors (or the mask widened to 0 / 1) selected by it; their total
  by three lane reductions (last axis, then rows, then the two slabs); that total broadcast along the 128
  lanes and multiplied by the indicator of lane `lw`; and the sum with the accumulator it loaded. At the
  exact instance this is `acc + total · [lane = lw]`, the total a plain sum over the block's pixels.
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value
import proofs.«142523_j80736795230576_2_alg».proof.Proof.HistSpec

noncomputable section

namespace Cert.Hist

open Idealize.ShloMosaic Idealize.ShloMosaic.ValueIdx

variable {F : FTy → Type} [FloatOps F]

abbrev SRows : Shape := ⟨2, ![2, 512]⟩
abbrev SSlab : Shape := ⟨1, ![2]⟩
abbrev SSlabCol : Shape := ⟨2, ![2, 1]⟩
abbrev SOne : Shape := ⟨1, ![1]⟩
abbrev SUnit : Shape := ⟨2, ![1, 1]⟩

/-- "The mask word is 1 and the target is the class value", per pixel of the block. -/
def hitMask (cw : BitVec 32) (t : FVec F SBlk .f32) (mk : IVec SBlk 32) : IVec SBlk 1 :=
  andi (cmpi .eq mk (broadcast SBlk (1#32 : BitVec 32))) (cmpf .oeq t (broadcast SBlk (Scalar.ofBits .f32 cw)))

/-- The total of a block: last axis, then rows, then the two slabs. -/
def blockTotal (v : FVec F SBlk .f32) : FVec F SUnit .f32 :=
  shapeCast SUnit
    (multiReduction .add [0] SOne
      (shapeCast SSlabCol
        (multiReduction .add [1] SSlab (multiReduction .add [2] SRows v 0x00000000#32) 0x00000000#32))
      0x00000000#32)

/-- The indicator of lane `lw` along the 128 lanes, as floats. -/
def laneHot (lw : BitVec 32) : FVec F SLane .f32 :=
  sitofp .f32 (extui 32 (cmpi .eq (iota .tc SLane 32 [1]) (broadcast SLane lw)) (by decide))

/-- One update of the sum accumulator. -/
def sumStep (cw lw : BitVec 32) (acc : FVec F SLane .f32) (o t : FVec F SBlk .f32) (mk : IVec SBlk 32) :
    FVec F SLane .f32 :=
  shapeCast SLane
    (addf acc
      (mulf
        (broadcastTo SLane
          (blockTotal (select (hitMask cw t mk) (mulf (subf o t) (subf o t))
            (broadcast SBlk (Scalar.ofBits .f32 0x00000000#32)))))
        (laneHot lw)))

/-- One update of the count accumulator. -/
def cntStep (cw lw : BitVec 32) (acc : FVec F SLane .f32) (t : FVec F SBlk .f32) (mk : IVec SBlk 32) :
    FVec F SLane .f32 :=
  shapeCast SLane
    (addf acc
      (mulf (broadcastTo SLane (blockTotal (sitofp .f32 (extui 32 (hitMask cw t mk) (by decide))))) (laneHot lw)))

/-! ### A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The block's total, operation by operation -/

/-- The sum along the last axis, at slab `k` and row `r`: the sum over the lanes of that row. -/
theorem reduceLanes_apply (v : FVec Ideal SBlk .f32) (k : Fin 2) (r : Fin 512) :
    (multiReduction .add [2] SRows v 0x00000000#32) (ix2 k r) = ∑ l : Fin 512, v (ix3 k r l) := by
  rw [Ideal.multiReduction_add_single]
  refine Finset.sum_congr rfl fun l _ => congrArg v ?_
  funext c
  match c with
  | ⟨0, _⟩ => rfl
  | ⟨1, _⟩ => rfl
  | ⟨2, _⟩ => rfl

/-- The sum along the rows, at slab `k`: the sum over the rows of that slab. -/
theorem reduceRows_apply (w : FVec Ideal SRows .f32) (k : Fin 2) :
    (multiReduction .add [1] SSlab w 0x00000000#32) (ix1 k) = ∑ r : Fin 512, w (ix2 k r) := by
  rw [Ideal.multiReduction_add_single]
  refine Finset.sum_congr rfl fun r _ => congrArg w ?_
  funext c
  match c with
  | ⟨0, _⟩ => rfl
  | ⟨1, _⟩ => rfl

/-- The sum along the slabs of a two-entry column: the sum of its two entries. -/
theorem reduceSlabs_apply (z : FVec Ideal SSlabCol .f32) (u : Fin 1) :
    (multiReduction .add [0] SOne z 0x00000000#32) (ix1 u) = ∑ k : Fin 2, z (ix2 k u) := by
  rw [Ideal.multiReduction_add_single]
  refine Finset.sum_congr rfl fun k _ => congrArg z ?_
  funext c
  match c with
  | ⟨0, _⟩ => rfl
  | ⟨1, _⟩ => rfl

/-- The cast that views the two slab totals as a column reads, at (k, 0), the total of slab k. -/
theorem castSlabCol_apply {α : Type} (x : SSlab.Idx → α) (k : Fin 2) (u : Fin 1) :
    (shapeCast SSlabCol x) (ix2 k u) = x (ix1 k) :=
  shapeCast_apply x _ _ _ (by
    have hu : u.val = 0 := by omega
    rw [Shape.rowMajor_val_two, Shape.rowMajor_val_one]
    show k.val = k.val * 1 + u.val
    omega)

/-- The total of a block is the plain sum of its entries. -/
theorem blockTotal_apply (v : FVec Ideal SBlk .f32) (u : SUnit.Idx) : blockTotal v u = ∑ q : SBlk.Idx, v q := by
  obtain ⟨a, b, rfl⟩ : ∃ a b, u = ix2 a b := ⟨u 0, u 1, eq_ix2 u⟩
  rw [sum_idx3]
  unfold blockTotal
  rw [shapeCast_a_1a_apply, reduceSlabs_apply]
  refine Finset.sum_congr rfl fun k _ => ?_
  rw [castSlabCol_apply, reduceRows_apply]
  refine Finset.sum_congr rfl fun r _ => ?_
  rw [reduceLanes_apply]

/-- One entry broadcast along the 128 lanes reads that entry at every lane. -/
theorem bcastLane_apply {α : Type} (x : SUnit.Idx → α) (y : SLane.Idx) :
    (broadcastTo SLane x) y = x (ix2 0 0) :=
  broadcastTo_apply x _ y (ix2 0 0) fun a => by
    match a with
    | ⟨0, _⟩ => rfl
    | ⟨1, _⟩ => rfl

/-! ### The mask and the lane indicator at an index -/

/-- On one bit, "and" is 1 exactly when both operands are. -/
theorem andi_eq_one_iff (a b : BitVec 1) : IntOp.andi a b = 1#1 ↔ a = 1#1 ∧ b = 1#1 := by
  revert a b; decide

/-- The bit of a Boolean is 1 exactly when the Boolean holds. -/
theorem ofBool_eq_one_iff (b : Bool) : BitVec.ofBool b = 1#1 ↔ b = true := by
  cases b <;> decide

/-- The mask at a pixel is 1 exactly at a hit. -/
theorem hitMask_eq_one_iff (cw : BitVec 32) (t : FVec Ideal SBlk .f32) (mk : IVec SBlk 32) (q : SBlk.Idx) :
    hitMask cw t mk q = 1#1 ↔ mk q = 1#32 ∧ t q = Ideal.ofBits .f32 cw := by
  show IntOp.andi (BitVec.ofBool (mk q == 1#32)) (BitVec.ofBool (decide (t q = Ideal.ofBits .f32 cw))) = 1#1 ↔ _
  rw [andi_eq_one_iff, ofBool_eq_one_iff, ofBool_eq_one_iff, beq_iff_eq, decide_eq_true_iff]

/-- A one-bit word widened to 32 bits and converted is 1 or 0. -/
theorem sitofp_extui_bit (b : BitVec 1) :
    FloatOps.sitofp (F := Ideal) .f32 (b.setWidth 32) = if b = 1#1 then (1 : EReal) else 0 := by
  rcases BitVec.eq_zero_or_eq_one b with rfl | rfl
  · rw [if_neg (by decide)]
    show (((BitVec.setWidth 32 (0#1)).toInt : ℝ) : EReal) = 0
    rw [show (BitVec.setWidth 32 (0#1)).toInt = 0 from by decide]
    simp
  · rw [if_pos rfl]
    show (((BitVec.setWidth 32 (1#1)).toInt : ℝ) : EReal) = 1
    rw [show (BitVec.setWidth 32 (1#1)).toInt = 1 from by decide]
    simp

/-- The lane indicator at a lane. -/
theorem laneHot_apply (lw : BitVec 32) (y : SLane.Idx) :
    laneHot (F := Ideal) lw y = if BitVec.ofNat 32 (y 1).val = lw then 1 else 0 := by
  have hi : (iota .tc SLane 32 [1]) y = BitVec.ofNat 32 (y 1).val := iota_single_apply .tc SLane 32 1 _ y
  show FloatOps.sitofp (F := Ideal) .f32 ((IntOp.cmpi .eq ((iota .tc SLane 32 [1]) y) lw).setWidth 32) = _
  rw [sitofp_extui_bit, hi]
  show (if BitVec.ofBool (BitVec.ofNat 32 (y 1).val == lw) = 1#1 then (1 : EReal) else 0) = _
  by_cases h : BitVec.ofNat 32 (y 1).val = lw
  · rw [if_pos h, if_pos ((ofBool_eq_one_iff _).mpr (beq_iff_eq.mpr h))]
  · rw [if_neg h, if_neg (fun h' => h (beq_iff_eq.mp ((ofBool_eq_one_iff _).mp h')))]

/-- The selected squared error at a pixel: the squared error at a hit, zero elsewhere. -/
theorem hitSel_apply (cw : BitVec 32) (o t : FVec Ideal SBlk .f32) (mk : IVec SBlk 32) (q : SBlk.Idx)
    [Decidable (mk q = 1#32 ∧ t q = Ideal.ofBits .f32 cw)] :
    select (hitMask cw t mk) (mulf (subf o t) (subf o t))
        (broadcast SBlk (Scalar.ofBits (F := Ideal) .f32 0x00000000#32)) q
      = if mk q = 1#32 ∧ t q = Ideal.ofBits .f32 cw then sqErr (o q) (t q) else 0 := by
  rw [select_apply]
  by_cases h : mk q = 1#32 ∧ t q = Ideal.ofBits .f32 cw
  · rw [if_pos h, (hitMask_eq_one_iff cw t mk q).mpr h, select_one]; rfl
  · rw [if_neg h, eq_zero_of_ne_one (mt (hitMask_eq_one_iff cw t mk q).mp h), select_zero]
    exact Ideal.ofBits_zero_f32

/-- The mask widened and converted at a pixel: one at a hit, zero elsewhere. -/
theorem hitOne_apply (cw : BitVec 32) (t : FVec Ideal SBlk .f32) (mk : IVec SBlk 32) (q : SBlk.Idx)
    [Decidable (mk q = 1#32 ∧ t q = Ideal.ofBits .f32 cw)] :
    (sitofp .f32 (extui 32 (hitMask cw t mk) (by decide)) : FVec Ideal SBlk .f32) q
      = if mk q = 1#32 ∧ t q = Ideal.ofBits .f32 cw then 1 else 0 := by
  show FloatOps.sitofp (F := Ideal) .f32 ((hitMask cw t mk q).setWidth 32) = _
  rw [sitofp_extui_bit]
  by_cases h : mk q = 1#32 ∧ t q = Ideal.ofBits .f32 cw
  · rw [if_pos h, if_pos ((hitMask_eq_one_iff cw t mk q).mpr h)]
  · rw [if_neg h, if_neg (mt (hitMask_eq_one_iff cw t mk q).mp h)]

/-- The sum update at a lane: the accumulator plus the block's hit sum where the lane is `lw`. -/
theorem sumStep_apply (cw lw : BitVec 32) (acc : FVec Ideal SLane .f32) (o t : FVec Ideal SBlk .f32)
    (mk : IVec SBlk 32) (y : SLane.Idx) :
    sumStep cw lw acc o t mk y
      = acc y + hitSum (Ideal.ofBits .f32 cw) o t mk * (if BitVec.ofNat 32 (y 1).val = lw then 1 else 0) := by
  have hs : (∑ q : SBlk.Idx, select (hitMask cw t mk) (mulf (subf o t) (subf o t))
        (broadcast SBlk (Scalar.ofBits (F := Ideal) .f32 0x00000000#32)) q)
      = hitSum (Ideal.ofBits .f32 cw) o t mk := by
    unfold hitSum
    exact Finset.sum_congr rfl fun q _ => hitSel_apply cw o t mk q
  unfold sumStep
  rw [shapeCast_self, addf_apply, mulf_apply, bcastLane_apply, blockTotal_apply, laneHot_apply, hs]

/-- The count update at a lane: the accumulator plus the block's hit count where the lane is `lw`. -/
theorem cntStep_apply (cw lw : BitVec 32) (acc : FVec Ideal SLane .f32) (t : FVec Ideal SBlk .f32)
    (mk : IVec SBlk 32) (y : SLane.Idx) :
    cntStep cw lw acc t mk y
      = acc y + hitCnt (Ideal.ofBits .f32 cw) t mk * (if BitVec.ofNat 32 (y 1).val = lw then 1 else 0) := by
  have hs : (∑ q : SBlk.Idx, (sitofp .f32 (extui 32 (hitMask cw t mk) (by decide)) : FVec Ideal SBlk .f32) q)
      = hitCnt (Ideal.ofBits .f32 cw) t mk := by
    unfold hitCnt
    exact Finset.sum_congr rfl fun q _ => hitOne_apply cw t mk q
  unfold cntStep
  rw [shapeCast_self, addf_apply, mulf_apply, bcastLane_apply, blockTotal_apply, laneHot_apply, hs]

end Cert.Hist

end
-- ==== Proof.HistUpdates.lean ====
/-
  The ten class updates of one grid point, and what they add to each lane.

  One point applies the ten updates in class order 0 … 9. Update `k` adds the block's class-`k` total into
  lane `k` only, so together they add, into lane `l`, the class-`l` total when `l` is one of the ten classes
  and nothing otherwise: the lanes 10 … 127 never change.
-/
import proofs.«142523_j80736795230576_2_alg».proof.Proof.HistSteps

noncomputable section

namespace Cert.Hist

open Idealize.ShloMosaic Idealize.ShloMosaic.ValueIdx

variable {F : FTy → Type} [FloatOps F]

/-- The ten sum updates, classes 0 … 9 in order, applied to an accumulator. -/
def sumAll (acc : FVec F SLane .f32) (o t : FVec F SBlk .f32) (mk : IVec SBlk 32) : FVec F SLane .f32 :=
  sumStep 0x41100000#32 9#32 (sumStep 0x41000000#32 8#32 (sumStep 0x40E00000#32 7#32 (sumStep 0x40C00000#32 6#32
    (sumStep 0x40A00000#32 5#32 (sumStep 0x40800000#32 4#32 (sumStep 0x40400000#32 3#32 (sumStep 0x40000000#32 2#32
      (sumStep 0x3F800000#32 1#32 (sumStep 0x00000000#32 0#32 acc o t mk) o t mk) o t mk) o t mk) o t mk) o t mk)
        o t mk) o t mk) o t mk) o t mk

/-- The ten count updates, classes 0 … 9 in order, applied to an accumulator. -/
def cntAll (acc : FVec F SLane .f32) (t : FVec F SBlk .f32) (mk : IVec SBlk 32) : FVec F SLane .f32 :=
  cntStep 0x41100000#32 9#32 (cntStep 0x41000000#32 8#32 (cntStep 0x40E00000#32 7#32 (cntStep 0x40C00000#32 6#32
    (cntStep 0x40A00000#32 5#32 (cntStep 0x40800000#32 4#32 (cntStep 0x40400000#32 3#32 (cntStep 0x40000000#32 2#32
      (cntStep 0x3F800000#32 1#32 (cntStep 0x00000000#32 0#32 acc t mk) t mk) t mk) t mk) t mk) t mk)
        t mk) t mk) t mk) t mk

/-- For small naturals, equality of their 32-bit words is equality of the naturals. -/
theorem ofNat32_eq_iff (l k : ℕ) (hl : l < 128) (hk : k < 128) :
    BitVec.ofNat 32 l = BitVec.ofNat 32 k ↔ l = k := by
  constructor
  · intro h
    have h' := congrArg BitVec.toNat h
    simp only [BitVec.toNat_ofNat] at h'
    omega
  · rintro rfl
    rfl

/-- Ten indicator terms added in class order onto a start value: at a lane below 128 only the term of the
lane's own class survives, and nothing is added when the lane is not a class. Extended reals have no
cancellation, so the terms are evaluated, never subtracted. -/
theorem tenTerms (a : EReal) (S : Fin 10 → EReal) (l : ℕ) (hl : l < 128) :
    a + S 0 * (if BitVec.ofNat 32 l = 0#32 then 1 else 0)
        + S 1 * (if BitVec.ofNat 32 l = 1#32 then 1 else 0)
        + S 2 * (if BitVec.ofNat 32 l = 2#32 then 1 else 0)
        + S 3 * (if BitVec.ofNat 32 l = 3#32 then 1 else 0)
        + S 4 * (if BitVec.ofNat 32 l = 4#32 then 1 else 0)
        + S 5 * (if BitVec.ofNat 32 l = 5#32 then 1 else 0)
        + S 6 * (if BitVec.ofNat 32 l = 6#32 then 1 else 0)
        + S 7 * (if BitVec.ofNat 32 l = 7#32 then 1 else 0)
        + S 8 * (if BitVec.ofNat 32 l = 8#32 then 1 else 0)
        + S 9 * (if BitVec.ofNat 32 l = 9#32 then 1 else 0)
      = a + (if h : l < 10 then S ⟨l, h⟩ else 0) := by
  have e : ∀ k : ℕ, k < 128 →
      (if BitVec.ofNat 32 l = BitVec.ofNat 32 k then (1 : EReal) else 0) = if l = k then 1 else 0 :=
    fun k hk => if_congr (ofNat32_eq_iff l k hl hk) rfl rfl
  rw [e 0 (by omega), e 1 (by omega), e 2 (by omega), e 3 (by omega), e 4 (by omega), e 5 (by omega),
    e 6 (by omega), e 7 (by omega), e 8 (by omega), e 9 (by omega)]
  by_cases h : l < 10
  · rw [dif_pos h]
    interval_cases l <;> simp
  · rw [dif_neg h]
    have n : ∀ k : ℕ, k < 10 → ¬ l = k := fun k hk => by omega
    rw [if_neg (n 0 (by omega)), if_neg (n 1 (by omega)), if_neg (n 2 (by omega)), if_neg (n 3 (by omega)),
      if_neg (n 4 (by omega)), if_neg (n 5 (by omega)), if_neg (n 6 (by omega)), if_neg (n 7 (by omega)),
      if_neg (n 8 (by omega)), if_neg (n 9 (by omega))]
    simp

/-- The ten sum updates at a lane: the class's block total is added where the lane is a class. -/
theorem sumAll_apply (acc : FVec Ideal SLane .f32) (o t : FVec Ideal SBlk .f32) (mk : IVec SBlk 32) (y : SLane.Idx) :
    sumAll acc o t mk y
      = acc y + (if h : (y 1).val < 10 then hitSum (classVal ⟨(y 1).val, h⟩) o t mk else 0) := by
  have hl : ((y 1 : Fin 128) : ℕ) < 128 := (y 1).isLt
  simp only [sumAll, sumStep_apply]
  exact tenTerms (acc y) (fun k => hitSum (classVal k) o t mk) (y 1).val hl

/-- The ten count updates at a lane. -/
theorem cntAll_apply (acc : FVec Ideal SLane .f32) (t : FVec Ideal SBlk .f32) (mk : IVec SBlk 32) (y : SLane.Idx) :
    cntAll acc t mk y
      = acc y + (if h : (y 1).val < 10 then hitCnt (classVal ⟨(y 1).val, h⟩) t mk else 0) := by
  have hl : ((y 1 : Fin 128) : ℕ) < 128 := (y 1).isLt
  simp only [cntAll, cntStep_apply]
  exact tenTerms (acc y) (fun k => hitCnt (classVal k) t mk) (y 1).val hl

end Cert.Hist

end
-- ==== Proof.KernelCases.lean ====
/-
  What one grid point's body leaves in the two lane accumulators, case by case.

  The body's ten class updates each load the whole 1 × 128 accumulator, add the class's block total into the
  class's lane, and store the whole accumulator back; since every store covers the buffer, only the latest
  one decides its contents, and each load reads the store before it. So after the body the sum accumulator
  holds the ten sum updates, in class order 0 … 9, applied to what it held on entry, and the count accumulator
  the ten count updates. At the first point the entry value is the zero vector the body has just stored; at the
  last point the body also copies both accumulators, after their updates, to the two output buffers.
-/
import proofs.«142523_j80736795230576_2_alg».proof.Proof.Gen.KernelIdeal.Frame
import proofs.«142523_j80736795230576_2_alg».proof.Proof.LibWholeStoreChain
import proofs.«142523_j80736795230576_2_alg».proof.Proof.HistUpdates
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen Cert.Hist

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero vector the first point stores into both accumulators. -/
abbrev zeroLane : Vec F S1x128 .f32 := broadcast S1x128 (Scalar.ofBits .f32 0x00000000#32)

/-- First point: the sum accumulator is zeroed, then updated ten times. -/
theorem sum_A (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : cond0_0 i) (hc1 : ¬cond0_1 i)
    (x0 x1 : Vec F S2x512x512 .f32) (x2 : Vec F S2x512x512 .i32) :
    sout0_A_0 c i a1 h1 a2 h2 a3 h3 a4 h4 a5 h5 a6 h6 a7 h7 hc0 hc1 x0 x1 x2 = sumAll zeroLane x0 x1 x2 := by
  unfold sout0_A_0
  rw [View.read_writes_eq_canon _ _ _ (scover0_A_0 c i a1 h1 a2 h2 a3 h3 a4 h4 a5 h5 a6 h6 a7 h7 hc0 hc1 x0 x1 x2)]
  unfold kernelRun0_A
  dsimp only
  sl_unfold_words
  rw [View.canon_cons_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- First point: the count accumulator is zeroed, then updated ten times. -/
theorem cnt_A (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : cond0_0 i) (hc1 : ¬cond0_1 i)
    (x0 x1 : Vec F S2x512x512 .f32) (x2 : Vec F S2x512x512 .i32) :
    sout0_A_1 c i a1 h1 a2 h2 a3 h3 a4 h4 a5 h5 a6 h6 a7 h7 hc0 hc1 x0 x1 x2 = cntAll zeroLane x1 x2 := by
  unfold sout0_A_1
  rw [View.read_writes_eq_canon _ _ _ (scover0_A_1 c i a1 h1 a2 h2 a3 h3 a4 h4 a5 h5 a6 h6 a7 h7 hc0 hc1 x0 x1 x2)]
  unfold kernelRun0_A
  dsimp only
  sl_unfold_words
  rw [View.canon_cons_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- A middle point: the sum accumulator's entry value updated ten times. -/
theorem sum_B (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : ¬cond0_0 i) (hc1 : ¬cond0_1 i)
    (x0 x1 : Vec F S2x512x512 .f32) (x2 : Vec F S2x512x512 .i32) (xs0 xs1 : Vec F S1x128 .f32) :
    sout0_B_0 c i a1 h1 a2 h2 a3 h3 a4 h4 a5 h5 a6 h6 a7 h7 hc0 hc1 x0 x1 x2 xs0 xs1 = sumAll xs0 x0 x1 x2 := by
  unfold sout0_B_0
  rw [View.read_writes_eq_canon _ _ _ (scover0_B_0 c i a1 h1 a2 h2 a3 h3 a4 h4 a5 h5 a6 h6 a7 h7 hc0 hc1 x0 x1 x2 xs0 xs1)]
  unfold kernelRun0_B
  dsimp only
  sl_unfold_words
  rw [View.canon_cons_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- A middle point: the count accumulator's entry value updated ten times. -/
theorem cnt_B (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : ¬cond0_0 i) (hc1 : ¬cond0_1 i)
    (x0 x1 : Vec F S2x512x512 .f32) (x2 : Vec F S2x512x512 .i32) (xs0 xs1 : Vec F S1x128 .f32) :
    sout0_B_1 c i a1 h1 a2 h2 a3 h3 a4 h4 a5 h5 a6 h6 a7 h7 hc0 hc1 x0 x1 x2 xs0 xs1 = cntAll xs1 x1 x2 := by
  unfold sout0_B_1
  rw [View.read_writes_eq_canon _ _ _ (scover0_B_1 c i a1 h1 a2 h2 a3 h3 a4 h4 a5 h5 a6 h6 a7 h7 hc0 hc1 x0 x1 x2 xs0 xs1)]
  unfold kernelRun0_B
  dsimp only
  sl_unfold_words
  rw [View.canon_cons_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- Last point: the sum accumulator's entry value updated ten times. -/
theorem sum_C (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : ¬cond0_0 i) (hc1 : cond0_1 i)
    (x0 x1 : Vec F S2x512x512 .f32) (x2 : Vec F S2x512x512 .i32) (xs0 xs1 : Vec F S1x128 .f32) :
    sout0_C_0 c i a1 h1 a2 h2 a3 h3 a4 h4 a5 h5 a6 h6 a7 h7 hc0 hc1 x0 x1 x2 xs0 xs1 = sumAll xs0 x0 x1 x2 := by
  unfold sout0_C_0
  rw [View.read_writes_eq_canon _ _ _ (scover0_C_0 c i a1 h1 a2 h2 a3 h3 a4 h4 a5 h5 a6 h6 a7 h7 hc0 hc1 x0 x1 x2 xs0 xs1)]
  unfold kernelRun0_C
  dsimp only
  sl_unfold_words
  rw [View.canon_cons_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- Last point: the count accumulator's entry value updated ten times. -/
theorem cnt_C (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : ¬cond0_0 i) (hc1 : cond0_1 i)
    (x0 x1 : Vec F S2x512x512 .f32) (x2 : Vec F S2x512x512 .i32) (xs0 xs1 : Vec F S1x128 .f32) :
    sout0_C_1 c i a1 h1 a2 h2 a3 h3 a4 h4 a5 h5 a6 h6 a7 h7 hc0 hc1 x0 x1 x2 xs0 xs1 = cntAll xs1 x1 x2 := by
  unfold sout0_C_1
  rw [View.read_writes_eq_canon _ _ _ (scover0_C_1 c i a1 h1 a2 h2 a3 h3 a4 h4 a5 h5 a6 h6 a7 h7 hc0 hc1 x0 x1 x2 xs0 xs1)]
  unfold kernelRun0_C
  dsimp only
  sl_unfold_words
  rw [View.canon_cons_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- Last point: the first output buffer receives the sum accumulator after its updates. -/
theorem out_sum_C (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : ¬cond0_0 i) (hc1 : cond0_1 i)
    (x0 x1 : Vec F S2x512x512 .f32) (x2 : Vec F S2x512x512 .i32) (xs0 xs1 : Vec F S1x128 .f32) :
    out0_C_3 c i a1 h1 a2 h2 a3 h3 a4 h4 a5 h5 a6 h6 a7 h7 hc0 hc1 x0 x1 x2 xs0 xs1 = sumAll xs0 x0 x1 x2 := by
  unfold out0_C_3
  rw [View.read_writes_eq_canon _ _ _ (cover0_C_3 c i a1 h1 a2 h2 a3 h3 a4 h4 a5 h5 a6 h6 a7 h7 hc0 hc1 x0 x1 x2 xs0 xs1)]
  unfold kernelRun0_C
  dsimp only
  sl_unfold_words
  rw [View.canon_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

/-- Last point: the second output buffer receives the count accumulator after its updates. -/
theorem out_cnt_C (c : Dev nD) (i : grid0.Coords)
    (a1 : Memref sig .tc .vmem S2x512x512 .f32) (h1 : a1.IsWhole) (a2 : Memref sig .tc .vmem S2x512x512 .f32) (h2 : a2.IsWhole)
    (a3 : Memref sig .tc .vmem S2x512x512 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc0 : ¬cond0_0 i) (hc1 : cond0_1 i)
    (x0 x1 : Vec F S2x512x512 .f32) (x2 : Vec F S2x512x512 .i32) (xs0 xs1 : Vec F S1x128 .f32) :
    out0_C_4 c i a1 h1 a2 h2 a3 h3 a4 h4 a5 h5 a6 h6 a7 h7 hc0 hc1 x0 x1 x2 xs0 xs1 = cntAll xs1 x1 x2 := by
  unfold out0_C_4
  rw [View.read_writes_eq_canon _ _ _ (cover0_C_4 c i a1 h1 a2 h2 a3 h3 a4 h4 a5 h5 a6 h6 a7 h7 hc0 hc1 x0 x1 x2 xs0 xs1)]
  unfold kernelRun0_C
  dsimp only
  sl_unfold_words
  rw [View.canon_unit_zero (S := S1x128) hz2]
  simp only [View.readCov_cons_unit_zero (S := S1x128) _ hz2, View.readCov_unit_zero (S := S1x128) _ hz2,
    View.readAt_eq_ld, h1.read_unread, h2.read_unread, h3.read_unread, h6.read_unread, h7.read_unread,
    View.ld_unit_zero (S := S2x512x512) hz3, View.ld_unit_zero (S := S1x128) hz2]
  rfl

end Cert.KernelIdeal.HistValue

end
-- ==== Proof.KernelInvariant.lean ====
/-
  The two lane accumulators after every grid point, and the outputs after the last.

  The running pair is defined by recursion on the point: at point 0 the ten sum (count) updates of that
  point's blocks applied to the zero vector, at point n + 1 the updates of that point's blocks applied to the
  pair after point n. By induction on the point the frame's two carried scratch buffers hold exactly this
  pair after every point (the first point is the zeroing case, the last the case that also copies to the
  outputs, all others the plain case), and after the last point, 31, the two output buffers hold it as well.
-/
import proofs.«142523_j80736795230576_2_alg».proof.Proof.KernelCases

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen Cert.Hist

variable {F : FTy → Type} [FloatOps F]
variable (m : (ℓ : Loc nD τ sig) → Buf (Elt F) ℓ) (ρ : Dev nD → PrngReg)

/-- The three input blocks of a grid point, at their literal types. -/
abbrev oblk (c : Dev nD) (t : Fin cfg0.N) : Vec F S2x512x512 .f32 := iblk m c 0 t
abbrev tblk (c : Dev nD) (t : Fin cfg0.N) : Vec F S2x512x512 .f32 := iblk m c 1 t
abbrev mblk (c : Dev nD) (t : Fin cfg0.N) : Vec F S2x512x512 .i32 := iblk m c 2 t

/-- The sum and count accumulators after point `n`. -/
def accAt (c : Dev nD) : (n : ℕ) → n < cfg0.N → Vec F S1x128 .f32 × Vec F S1x128 .f32
  | 0, h => (sumAll zeroLane (oblk m c ⟨0, h⟩) (tblk m c ⟨0, h⟩) (mblk m c ⟨0, h⟩),
      cntAll zeroLane (tblk m c ⟨0, h⟩) (mblk m c ⟨0, h⟩))
  | n + 1, h => (sumAll (accAt c n (Nat.lt_of_succ_lt h)).1 (oblk m c ⟨n + 1, h⟩) (tblk m c ⟨n + 1, h⟩) (mblk m c ⟨n + 1, h⟩),
      cntAll (accAt c n (Nat.lt_of_succ_lt h)).2 (tblk m c ⟨n + 1, h⟩) (mblk m c ⟨n + 1, h⟩))

/-- After every point the two carried scratch buffers hold the running pair. -/
theorem scratch_eq (c : Dev nD) : ∀ (n : ℕ) (h : n < cfg0.N),
    (outsAt0 m c n h).2.2.1 = (accAt m c n h).1 ∧ (outsAt0 m c n h).2.2.2 = (accAt m c n h).2
  | 0, h => by
    have e : outsAt0 m c 0 h = _ := outsAt0_A m c ⟨0, h⟩ rfl (by dsimp only; omega)
    rw [e]; dsimp only
    exact ⟨sum_A .., cnt_A ..⟩
  | n + 1, h => by
    have hN : cfg0.N = 32 := N_0
    have h0 : ¬(⟨n + 1, h⟩ : Fin cfg0.N).val % 32 = 0 := by dsimp only; omega
    obtain ⟨ih1, ih2⟩ := scratch_eq c n (Nat.lt_of_succ_lt h)
    by_cases h1 : (⟨n + 1, h⟩ : Fin cfg0.N).val % 32 = 31
    · have e : outsAt0 m c (n + 1) h = _ := outsAt0_C m c ⟨n + 1, h⟩ h0 h1
      rw [e]; dsimp only
      rw [sum_C, cnt_C]
      show sumAll (outsAt0 m c n _).2.2.1 _ _ _ = _ ∧ cntAll (outsAt0 m c n _).2.2.2 _ _ = _
      rw [ih1, ih2]
      exact ⟨rfl, rfl⟩
    · have e : outsAt0 m c (n + 1) h = _ := outsAt0_B m c ⟨n + 1, h⟩ h0 h1
      rw [e]; dsimp only
      rw [sum_B, cnt_B]
      show sumAll (outsAt0 m c n _).2.2.1 _ _ _ = _ ∧ cntAll (outsAt0 m c n _).2.2.2 _ _ = _
      rw [ih1, ih2]
      exact ⟨rfl, rfl⟩

/-- After the last point the two output buffers hold the running pair too. -/
theorem out_last (c : Dev nD) (n : ℕ) (h : n + 1 < cfg0.N) (h31 : n + 1 = 31) :
    (outsAt0 m c (n + 1) h).1 = (accAt m c (n + 1) h).1 ∧ (outsAt0 m c (n + 1) h).2.1 = (accAt m c (n + 1) h).2 := by
  have h0 : ¬(⟨n + 1, h⟩ : Fin cfg0.N).val % 32 = 0 := by dsimp only; omega
  have h1 : (⟨n + 1, h⟩ : Fin cfg0.N).val % 32 = 31 := by dsimp only; omega
  obtain ⟨ih1, ih2⟩ := scratch_eq m c n (Nat.lt_of_succ_lt h)
  have e : outsAt0 m c (n + 1) h = _ := outsAt0_C m c ⟨n + 1, h⟩ h0 h1
  rw [e]; dsimp only
  rw [out_sum_C, out_cnt_C]
  show sumAll (outsAt0 m c n _).2.2.1 _ _ _ = _ ∧ cntAll (outsAt0 m c n _).2.2.2 _ _ = _
  rw [ih1, ih2]
  exact ⟨rfl, rfl⟩

end Cert.KernelIdeal.HistValue

end
-- ==== Proof.HistTail.lean ====
/-
  The epilogue both programs share: from the ten per-class sums and counts, the per-class mean where the
  count is positive (the quotient by max(count, 1)), 0 elsewhere; and the total of those means weighted by
  the constant 0.1. It is kept as ONE function of the two ten-vectors, never opened: the two programs are
  compared through their sums and counts alone.
-/
import Idealize.ShloMosaic.PureOps
import proofs.«142523_j80736795230576_2_alg».proof.Proof.HistSpec

noncomputable section

namespace Cert.Hist

open Idealize.ShloMosaic

variable {F : FTy → Type} [FloatOps F]

abbrev SScalar : Shape := ⟨0, ![]⟩

/-- The per-class mean squared error, 0 for an empty class. -/
def tailEach (sums cnts : FVec F SCls .f32) : FVec F SCls .f32 :=
  select
    (cmpf (F := F) .ogt cnts (broadcastInDim SCls ![] (by decide) (constant SScalar .f32 0x00000000#32)))
    (Host.divf sums (maximumf cnts (broadcastInDim SCls ![] (by decide) (constant SScalar .f32 0x3F800000#32))))
    (broadcastInDim SCls ![] (by decide) (id (constant SScalar .f32 0x00000000#32)))

/-- The weighted total of the per-class means. -/
def tailLoss (sums cnts : FVec F SCls .f32) : FVec F SScalar .f32 :=
  Host.reduceAdd (axes := [0]) (mulf (constant SCls .f32 0x3DCCCCCD#32) (tailEach sums cnts)) (constant SScalar .f32 0x00000000#32)
    (by decide) (by decide)

end Cert.Hist

end
-- ==== Proof.KernelFinal.lean ====
/-
  The kernel's two result arrays after the run, and its three results.

  Each 1 × 128 result array has ONE block, the whole array, and it is written back once, after the last
  grid point; so each ends holding what the last point left in its output buffer: the sum (count)
  accumulator after point 31. The host lines after the region keep lanes 0 … 9 of each as the per-class
  sums and counts and apply the shared epilogue to them.
-/
import proofs.«142523_j80736795230576_2_alg».proof.Proof.KernelInvariant
import proofs.«142523_j80736795230576_2_alg».proof.Proof.HistTail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen Cert.Hist

variable {F : FTy → Type} [FloatOps F]
variable (m : (ℓ : Loc nD τ sig) → Buf (Elt F) ℓ) (ρ : Dev nD → PrngReg)

theorem lastLt : 30 + 1 < cfg0.N := by rw [show cfg0.N = 32 from N_0]; decide

/-- The last grid point. -/
abbrev tLast : Fin cfg0.N := ⟨30 + 1, lastLt⟩

/-- The accumulators after the last point, as contents of the two result arrays. -/
abbrev resSum (c : Dev nD) : Buf (Elt F) ((c : Thread nD τ).loc main_v0_0) := (accAt m c (30 + 1) lastLt).1
abbrev resCnt (c : Dev nD) : Buf (Elt F) ((c : Thread nD τ).loc main_v0_1) := (accAt m c (30 + 1) lastLt).2

/-- The one write-back of the first result array, at the last point, writes the sum accumulator. -/
theorem flushed3_eq (c : Dev nD) (t : Fin cfg0.N) (hf : (cfg0.win 3).flush t = true) :
    (dats m 0 c).flushed 3 t = ((cfg0.win 3).blk t).view.read (Elt F) (resSum m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, (out_last m c 30 lastLt rfl).1]
  have hz' : (fun a => win0_3.index tLast a * main_v0_0.ty.shape.size a) = fun _ => 0 := funext fun a => by fin_cases a <;> decide +kernel
  exact (Memref.read_access_unit_zero (Elt F) main_v0_0 hz' (fun a => by rw [congrFun hz' a]; simp) (resSum m c)).symm

/-- So the first result array ends holding the sum accumulator after the last point: that point's block is the whole array. -/
theorem final3 (c : Dev nD) : (dats m 0 c).arrAt 3 cfg0.N = resSum m c :=
  (dats m 0 c).arrAt_eq_of_cover 3 (resSum m c) (flushed3_eq m c) fun i =>
    ⟨tLast, (flush0_3 tLast).mpr rfl, by
      show i ∈ ((View.whole main_v0_0).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

/-- The one write-back of the second result array, at the last point, writes the count accumulator. -/
theorem flushed4_eq (c : Dev nD) (t : Fin cfg0.N) (hf : (cfg0.win 4).flush t = true) :
    (dats m 0 c).flushed 4 t = ((cfg0.win 4).blk t).view.read (Elt F) (resCnt m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4, (out_last m c 30 lastLt rfl).2]
  have hz' : (fun a => win0_4.index tLast a * main_v0_1.ty.shape.size a) = fun _ => 0 := funext fun a => by fin_cases a <;> decide +kernel
  exact (Memref.read_access_unit_zero (Elt F) main_v0_1 hz' (fun a => by rw [congrFun hz' a]; simp) (resCnt m c)).symm

/-- So the second result array ends holding the count accumulator after the last point. -/
theorem final4 (c : Dev nD) : (dats m 0 c).arrAt 4 cfg0.N = resCnt m c :=
  (dats m 0 c).arrAt_eq_of_cover 4 (resCnt m c) (flushed4_eq m c) fun i =>
    ⟨tLast, (flush0_4 tLast).mpr rfl, by
      show i ∈ ((View.whole main_v0_1).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

/-- Lanes 0 … 9 of a 1 × 128 vector, as a ten-vector: the slice and reshape the host lines after the region apply. -/
def laneCls (X : FVec F S1x128 .f32) : FVec F S10 .f32 :=
  shapeCast S10 (extractStridedSlice S1x10 ![0, 0] X slices_S1x128_S1x10_0_0) shapeCasts_S1x10_S10

/-- What the host lines after the region find in the first result array. -/
theorem tailArr3 (c : Dev nD) :
    Pipeline.withArrays (cfgs 0).spec c (V0 m c) (fun w => (dats m 0 c).arrAt w (cfgs 0).N) (Proc.devRef .tc main_v0_0)
      = resSum m c :=
  (Pipeline.withArrays_arr spec0 launch0.win.arr_inj c _ _ 3).trans (final3 m c)

/-- What they find in the second. -/
theorem tailArr4 (c : Dev nD) :
    Pipeline.withArrays (cfgs 0).spec c (V0 m c) (fun w => (dats m 0 c).arrAt w (cfgs 0).N) (Proc.devRef .tc main_v0_1)
      = resCnt m c :=
  (Pipeline.withArrays_arr spec0 launch0.win.arr_inj c _ _ 4).trans (final4 m c)

/-- The weight vector, written before the region, is still there. -/
theorem tailCst (c : Dev nD) :
    Pipeline.withArrays (cfgs 0).spec c (V0 m c) (fun w => (dats m 0 c).arrAt w (cfgs 0).N) (Proc.devRef .tc main_cst)
      = constant S10 .f32 0x3DCCCCCD#32 := by
  rw [Pipeline.withArrays_of_ne spec0 c _ _ main_cst (by decide)]
  show StableHlo.after hostOps0 (fun b => m (c, b)) (Proc.devRef .tc main_cst) = _
  after_results

open Idealize.ShloMosaic.StableHlo in
/-- The counts result: lanes 0 … 9 of the count accumulator after the last point. -/
theorem tail_cnt (c : Dev nD) :
    Pipeline.afterTail₀ cfgs (dats m) 0 (V0 m) [hostOps1, hostOps1_1, hostOps1_2] c main_v4 = laneCls (resCnt m c) := by
  unfold Pipeline.afterTail₀
  simp only [hostOps1, hostOps1_1, hostOps1_2, List.flatten_cons, List.flatten_nil, List.append_nil, List.cons_append, List.nil_append]
  after_results
  rw [tailArr4]
  rfl

open Idealize.ShloMosaic.StableHlo in
/-- The per-class result: the shared epilogue's means of lanes 0 … 9 of the two accumulators. -/
theorem tail_each (c : Dev nD) :
    Pipeline.afterTail₀ cfgs (dats m) 0 (V0 m) [hostOps1, hostOps1_1, hostOps1_2] c main_v10
      = tailEach (laneCls (resSum m c)) (laneCls (resCnt m c)) := by
  unfold Pipeline.afterTail₀
  simp only [hostOps1, hostOps1_1, hostOps1_2, List.flatten_cons, List.flatten_nil, List.append_nil, List.cons_append, List.nil_append]
  after_results
  rw [tailArr3, tailArr4]
  rfl

open Idealize.ShloMosaic.StableHlo in
/-- The loss result: the shared epilogue's weighted total. -/
theorem tail_loss (c : Dev nD) :
    Pipeline.afterTail₀ cfgs (dats m) 0 (V0 m) [hostOps1, hostOps1_1, hostOps1_2] c main_v12
      = tailLoss (laneCls (resSum m c)) (laneCls (resCnt m c)) := by
  unfold Pipeline.afterTail₀
  simp only [hostOps1, hostOps1_1, hostOps1_2, List.flatten_cons, List.flatten_nil, List.append_nil, List.cons_append, List.nil_append]
  after_results
  rw [tailArr3, tailArr4, tailCst]
  rfl

/-- The kernel's run, read: its three results are the shared epilogue of lanes 0 … 9 of the two accumulators after the
    last point, and its argument arrays end unchanged. -/
theorem kernel_run : θ_run defs (onTc (τ := τ) (main (F := F))) ⟨m, fun _ => 0, ρ⟩ fun r => ∀ c : Dev nD,
      r.2.mem ((c.tc : Thread nD τ).loc main_v12) = tailLoss (laneCls (resSum m c)) (laneCls (resCnt m c))
      ∧ r.2.mem ((c.tc : Thread nD τ).loc main_v10) = tailEach (laneCls (resSum m c)) (laneCls (resCnt m c))
      ∧ r.2.mem ((c.tc : Thread nD τ).loc main_v4) = laneCls (resCnt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 rfl (by decide))).trans (tail_loss m c),
      ((h c).2 main_v10 (Pipeline.mem_restRefs_of main_v10 rfl (by decide))).trans (tail_each m c),
      ((h c).2 main_v4 (Pipeline.mem_restRefs_of main_v4 rfl (by decide))).trans (tail_cnt m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.HistValue

end
-- ==== Proof.HistBlocks.lean ====
/-
  The whole arrays as 32 blocks of two slabs.

  Grid point `s` (0 … 31) sees slabs `2 s` and `2 s + 1` of the 64: pixel `(r, y, x)` of its block is pixel
  `(2 s + r, y, x)` of the array. Every pixel of the array is a pixel of exactly one block, so a sum over all
  pixels is the sum over the blocks of the sums over each block's pixels; in particular the hit sums and hit
  counts of the arrays are the totals of the blocks' hit sums and hit counts.
-/
import Idealize.ShloMosaic.Lib.ValueIdx
import proofs.«142523_j80736795230576_2_alg».proof.Proof.HistSpec

noncomputable section

namespace Cert.Hist

open Idealize.ShloMosaic Idealize.ShloMosaic.ValueIdx

/-- Pixel `q` of block `s`, as a pixel of the array. -/
def blockEmb (s : Fin 32) (q : SBlk.Idx) : SArr.Idx :=
  ix3 (⟨2 * s.val + (q 0).val, by
    have h0 : ((q 0 : Fin 2) : Nat) < 2 := (q 0).isLt
    have hs := s.isLt
    omega⟩ : Fin 64) (q 1) (q 2)

/-- The block that holds pixel `p` and `p`'s place in it: slab `a` of the array is slab `a % 2` of block `a / 2`. -/
def blockOf (p : SArr.Idx) : Fin 32 × SBlk.Idx :=
  (⟨((p 0 : Fin 64) : Nat) / 2, by
      have h : ((p 0 : Fin 64) : Nat) < 64 := (p 0).isLt
      omega⟩,
   ix3 (⟨((p 0 : Fin 64) : Nat) % 2, Nat.mod_lt _ (by decide)⟩ : Fin 2) (p 1) (p 2))

/-- Every pixel of the array is a pixel of exactly one block: `(s, q) ↦ blockEmb s q` is a bijection from the
    pairs of a block and a pixel of it onto the array's pixels, with inverse `blockOf`. -/
def blockEquiv : Fin 32 × SBlk.Idx ≃ SArr.Idx where
  toFun x := blockEmb x.1 x.2
  invFun := blockOf
  left_inv := by
    rintro ⟨s, q⟩
    have h0 : ((q 0 : Fin 2) : Nat) < 2 := (q 0).isLt
    refine Prod.ext (Fin.ext ?_) ?_
    · -- (2 s + r) / 2 = s for r < 2
      show (2 * s.val + ((q 0 : Fin 2) : Nat)) / 2 = s.val
      omega
    · -- (2 s + r) % 2 = r for r < 2; the other two coordinates are untouched
      funext d
      match d with
      | ⟨0, _⟩ =>
        refine Fin.ext ?_
        show (2 * s.val + ((q 0 : Fin 2) : Nat)) % 2 = ((q 0 : Fin 2) : Nat)
        omega
      | ⟨1, _⟩ => rfl
      | ⟨2, _⟩ => rfl
  right_inv := by
    intro p
    -- 2 (a / 2) + a % 2 = a; the other two coordinates are untouched
    funext d
    match d with
    | ⟨0, _⟩ =>
      refine Fin.ext ?_
      show 2 * (((p 0 : Fin 64) : Nat) / 2) + ((p 0 : Fin 64) : Nat) % 2 = ((p 0 : Fin 64) : Nat)
      omega
    | ⟨1, _⟩ => rfl
    | ⟨2, _⟩ => rfl

/-- A sum over the array's pixels is the sum over the blocks of the sums over each block's pixels. -/
theorem sum_blocks {M : Type*} [AddCommMonoid M] (f : SArr.Idx → M) :
    ∑ p : SArr.Idx, f p = ∑ s : Fin 32, ∑ q : SBlk.Idx, f (blockEmb s q) := by
  -- re-index the left side along the bijection, then split the sum over pairs
  rw [← Equiv.sum_comp blockEquiv f, Fintype.sum_prod_type]
  rfl

/-- The arrays' hit sum is the total of the blocks' hit sums. -/
theorem hitSum_blocks (v : EReal) (o t : SArr.Idx → EReal) (mk : SArr.Idx → BitVec 32) :
    hitSum v o t mk
      = ∑ s : Fin 32, hitSum v (fun q : SBlk.Idx => o (blockEmb s q)) (fun q => t (blockEmb s q)) (fun q => mk (blockEmb s q)) := by
  unfold hitSum
  exact sum_blocks _

/-- The arrays' hit count is the total of the blocks' hit counts. -/
theorem hitCnt_blocks (v : EReal) (t : SArr.Idx → EReal) (mk : SArr.Idx → BitVec 32) :
    hitCnt v t mk
      = ∑ s : Fin 32, hitCnt v (fun q : SBlk.Idx => t (blockEmb s q)) (fun q => mk (blockEmb s q)) := by
  unfold hitCnt
  exact sum_blocks _

end Cert.Hist

end
-- ==== Proof.KernelClosed.lean ====
/-
  The kernel's accumulators in closed form, at the exact instance.

  Grid point `t` reads slabs `2 t` and `2 t + 1` of each argument array: its block at pixel `q` is the array at
  `blockEmb t q`. By induction on the point, lane `l` of the sum accumulator after point `n` is, for `l` one of
  the ten classes, the total over points 0 … n of the class-`l` hit sums of their blocks, and 0 for the other
  lanes (they only ever receive zeros); likewise the counts. After the last point the totals run over all 32
  blocks, which partition the arrays: lanes 0 … 9 of the two accumulators are the arrays' per-class hit sums
  and hit counts.
-/
import proofs.«142523_j80736795230576_2_alg».proof.Proof.KernelFinal
import proofs.«142523_j80736795230576_2_alg».proof.Proof.HistBlocks
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen Cert.Hist Idealize.ShloMosaic.ValueIdx

variable (m : (ℓ : Loc nD τ sig) → Buf (Elt Ideal) ℓ)

/-- A grid point as a number 0 … 31. -/
def pt (t : Fin cfg0.N) : Fin 32 := ⟨t.val, lt_of_lt_of_eq t.isLt N_0⟩

/-- The three argument arrays of core `c`. -/
abbrev oArr (c : Dev nD) : S64x512x512.Idx → EReal := m ((c : Thread nD τ).loc main_arg0)
abbrev tArr (c : Dev nD) : S64x512x512.Idx → EReal := m ((c : Thread nD τ).loc main_arg1)
abbrev mArr (c : Dev nD) : S64x512x512.Idx → BitVec 32 := m ((c : Thread nD τ).loc main_arg2)

/-- The three input windows move along the first axis only, one block per point. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0))

/-- Point `t`'s block of the first argument is that array at the block's pixels. -/
theorem oblk_apply (c : Dev nD) (t : Fin cfg0.N) (q : S2x512x512.Idx) :
    oblk m c t q = oArr m c (blockEmb (pt t) q) := by
  obtain ⟨⟨h0, h1, h2⟩, -, -⟩ := idx_facts t
  show iblk m c 0 t q = _
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 2 + 1 * (q 0).val = 2 * t.val + (q 0).val; rw [h0]; omega
  | ⟨1, _⟩ => show win0_0.index t 1 * 512 + 1 * (q 1).val = (q 1).val; rw [h1]; omega
  | ⟨2, _⟩ => show win0_0.index t 2 * 512 + 1 * (q 2).val = (q 2).val; rw [h2]; omega

/-- The same for the second argument. -/
theorem tblk_apply (c : Dev nD) (t : Fin cfg0.N) (q : S2x512x512.Idx) :
    tblk m c t q = tArr m c (blockEmb (pt t) q) := by
  obtain ⟨-, ⟨h0, h1, h2⟩, -⟩ := idx_facts t
  show iblk m c 1 t q = _
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 2 + 1 * (q 0).val = 2 * t.val + (q 0).val; rw [h0]; omega
  | ⟨1, _⟩ => show win0_1.index t 1 * 512 + 1 * (q 1).val = (q 1).val; rw [h1]; omega
  | ⟨2, _⟩ => show win0_1.index t 2 * 512 + 1 * (q 2).val = (q 2).val; rw [h2]; omega

/-- And for the mask. -/
theorem mblk_apply (c : Dev nD) (t : Fin cfg0.N) (q : S2x512x512.Idx) :
    mblk m c t q = mArr m c (blockEmb (pt t) q) := by
  obtain ⟨-, -, ⟨h0, h1, h2⟩⟩ := idx_facts t
  show iblk m c 2 t q = _
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 2 + 1 * (q 0).val = 2 * t.val + (q 0).val; rw [h0]; omega
  | ⟨1, _⟩ => show win0_2.index t 1 * 512 + 1 * (q 1).val = (q 1).val; rw [h1]; omega
  | ⟨2, _⟩ => show win0_2.index t 2 * 512 + 1 * (q 2).val = (q 2).val; rw [h2]; omega

/-- The class-`k` hit sum and hit count of point `s`'s blocks (0 past the grid's end). -/
def ptSum (c : Dev nD) (k : Fin 10) (s : ℕ) : EReal :=
  if hs : s < cfg0.N then hitSum (classVal k) (oblk m c ⟨s, hs⟩) (tblk m c ⟨s, hs⟩) (mblk m c ⟨s, hs⟩) else 0
def ptCnt (c : Dev nD) (k : Fin 10) (s : ℕ) : EReal :=
  if hs : s < cfg0.N then hitCnt (classVal k) (tblk m c ⟨s, hs⟩) (mblk m c ⟨s, hs⟩) else 0

theorem zeroLane_apply (y : S1x128.Idx) : (zeroLane (F := Ideal) : Vec Ideal S1x128 .f32) y = 0 :=
  Ideal.ofBits_zero_f32

/-- Lane by lane, the accumulators after point `n` are the totals over points 0 … n for the ten class lanes, 0 elsewhere. -/
theorem acc_apply (c : Dev nD) : ∀ (n : ℕ) (h : n < cfg0.N) (y : S1x128.Idx),
    (accAt m c n h).1 y = (if hl : (y 1).val < 10 then ∑ s ∈ Finset.range (n + 1), ptSum m c ⟨(y 1).val, hl⟩ s else 0)
    ∧ (accAt m c n h).2 y = (if hl : (y 1).val < 10 then ∑ s ∈ Finset.range (n + 1), ptCnt m c ⟨(y 1).val, hl⟩ s else 0)
  | 0, h, y => by
    show sumAll zeroLane (oblk m c ⟨0, h⟩) (tblk m c ⟨0, h⟩) (mblk m c ⟨0, h⟩) y = _
      ∧ cntAll zeroLane (tblk m c ⟨0, h⟩) (mblk m c ⟨0, h⟩) y = _
    rw [sumAll_apply, cntAll_apply, zeroLane_apply]
    constructor
    · by_cases hl : (y 1).val < 10
      · simp only [dif_pos hl, Finset.range_one, Finset.sum_singleton, ptSum, dif_pos h, zero_add]
      · simp only [dif_neg hl, add_zero]
    · by_cases hl : (y 1).val < 10
      · simp only [dif_pos hl, Finset.range_one, Finset.sum_singleton, ptCnt, dif_pos h, zero_add]
      · simp only [dif_neg hl, add_zero]
  | n + 1, h, y => by
    obtain ⟨i1, i2⟩ := acc_apply c n (Nat.lt_of_succ_lt h) y
    show sumAll (accAt m c n _).1 (oblk m c ⟨n + 1, h⟩) (tblk m c ⟨n + 1, h⟩) (mblk m c ⟨n + 1, h⟩) y = _
      ∧ cntAll (accAt m c n _).2 (tblk m c ⟨n + 1, h⟩) (mblk m c ⟨n + 1, h⟩) y = _
    rw [sumAll_apply, cntAll_apply, i1, i2]
    constructor
    · by_cases hl : (y 1).val < 10
      · simp only [dif_pos hl]
        rw [Finset.sum_range_succ _ (n + 1)]
        simp only [ptSum, dif_pos h]
      · simp only [dif_neg hl, add_zero]
    · by_cases hl : (y 1).val < 10
      · simp only [dif_pos hl]
        rw [Finset.sum_range_succ _ (n + 1)]
        simp only [ptCnt, dif_pos h]
      · simp only [dif_neg hl, add_zero]

/-- Entry `k` of the kept lanes is lane `k`. -/
theorem laneCls_ix (X : FVec Ideal S1x128 .f32) (k : Fin 10) :
    laneCls X (ix1 k) = X (ix2 (0 : Fin 1) (⟨k.val, lt_trans k.isLt (by decide)⟩ : Fin 128)) := by
  unfold laneCls
  rw [shapeCast_1a_a_apply]
  exact extractStridedSlice_apply ![0, 0] X slices_S1x128_S1x10_0_0 (ix2 (0 : Fin 1) k)
    (ix2 (0 : Fin 1) (⟨k.val, lt_trans k.isLt (by decide)⟩ : Fin 128)) (fun a => by
    match a with
    | ⟨0, _⟩ => rfl
    | ⟨1, _⟩ => exact (Nat.zero_add _).symm)

/-- The same at any index of the ten-vector. -/
theorem laneCls_apply (X : FVec Ideal S1x128 .f32) (i : S10.Idx) :
    laneCls X i = X (ix2 (0 : Fin 1) (⟨(i 0).val, lt_trans (i 0).isLt (by decide)⟩ : Fin 128)) :=
  (congrArg (laneCls X) (eq_ix1 (n := 10) i)).trans (laneCls_ix X (i 0))

/-- The 32 points' totals are the arrays' hit sums: the blocks partition the arrays. -/
theorem total_sum (c : Dev nD) (k : Fin 10) :
    ∑ s ∈ Finset.range (30 + 1 + 1), ptSum m c k s = hitSum (classVal k) (oArr m c) (tArr m c) (mArr m c) := by
  rw [hitSum_blocks, Finset.sum_range]
  refine Finset.sum_congr rfl fun s _ => ?_
  have hs : s.val < cfg0.N := lt_of_lt_of_eq s.isLt N_0.symm
  unfold ptSum
  rw [dif_pos hs]
  have hp : pt ⟨s.val, hs⟩ = s := Fin.ext rfl
  congr 1
  · funext q; rw [oblk_apply, hp]
  · funext q; rw [tblk_apply, hp]
  · funext q; rw [mblk_apply, hp]

/-- The same for the counts. -/
theorem total_cnt (c : Dev nD) (k : Fin 10) :
    ∑ s ∈ Finset.range (30 + 1 + 1), ptCnt m c k s = hitCnt (classVal k) (tArr m c) (mArr m c) := by
  rw [hitCnt_blocks, Finset.sum_range]
  refine Finset.sum_congr rfl fun s _ => ?_
  have hs : s.val < cfg0.N := lt_of_lt_of_eq s.isLt N_0.symm
  unfold ptCnt
  rw [dif_pos hs]
  have hp : pt ⟨s.val, hs⟩ = s := Fin.ext rfl
  congr 1
  · funext q; rw [tblk_apply, hp]
  · funext q; rw [mblk_apply, hp]

/-- Lanes 0 … 9 of the sum accumulator after the last point are the arrays' per-class hit sums. -/
theorem sums_closed (c : Dev nD) :
    (laneCls (F := Ideal) (resSum m c) : SCls.Idx → EReal) = classSums (oArr m c) (tArr m c) (mArr m c) := by
  funext i
  have hl : (i 0).val < 10 := (i 0).isLt
  rw [laneCls_apply]
  show (accAt m c (30 + 1) lastLt).1 _ = _
  rw [(acc_apply m c (30 + 1) lastLt _).1, dif_pos hl, total_sum]
  rfl

/-- Lanes 0 … 9 of the count accumulator after the last point are the arrays' per-class hit counts. -/
theorem cnts_closed (c : Dev nD) :
    (laneCls (F := Ideal) (resCnt m c) : SCls.Idx → EReal) = classCnts (tArr m c) (mArr m c) := by
  funext i
  have hl : (i 0).val < 10 := (i 0).isLt
  rw [laneCls_apply]
  show (accAt m c (30 + 1) lastLt).2 _ = _
  rw [(acc_apply m c (30 + 1) lastLt _).2, dif_pos hl, total_cnt]
  rfl

end Cert.KernelIdeal.HistValue

end
-- ==== Proof.LibSegmentScatter.lean ====
/-
  An accumulating scatter of scalars into a vector, read at an entry.

  The operand is a vector of `N` entries, the updates a vector of `E` scalars, and update `e` carries ONE
  start index, the word at position `(e, 0)` of the [E, 1] index array (no window axes: the operand's one
  axis is an inserted window axis). Read as a signed integer, not clamped, that word names the entry the
  update is added to; an update whose word names no entry is dropped. So entry `n` ends at its old value plus
  the sum of the updates whose word, read signed, is `n`.
-/
import Idealize.ShloMosaic.PureOps.Ideal
import Idealize.ShloMosaic.Lib.ValueIdx

noncomputable section

namespace Idealize.ShloMosaic.SegmentScatter

open Idealize.ShloMosaic Idealize.ShloMosaic.ValueIdx

variable {N E w : Nat} {φ : FTy}

/-- The dimension numbers of a scatter of scalars into a vector (no window axes, the operand's one axis inserted and
    named by the one component of the index vector, which runs along axis 1), their conditions left abstract. -/
abbrev segDims (N E : Nat)
    (wf : ScatterDims.WF (⟨1, ![N]⟩ : Shape) ⟨2, ![E, 1]⟩ ⟨1, ![E]⟩ [] [(0 : Fin 1)] [(0 : Fin 1)] 1) :
    ScatterDims (⟨1, ![N]⟩ : Shape) ⟨2, ![E, 1]⟩ ⟨1, ![E]⟩ :=
  ⟨[], [(0 : Fin 1)], [(0 : Fin 1)], 1, wf⟩

/-- The operand's axis is one the index vector names. -/
theorem segDims_zero_mem (wf) : (0 : Fin 1) ∈ (segDims N E wf).scatterDimsToOperandDims :=
  List.mem_singleton.mpr rfl

/-- The operand has no axis that is not inserted: there is no window axis to receive. -/
theorem segDims_sKept (wf) : (segDims N E wf).sKept = [] := rfl

/-- Update `j` reads its one start component at position `(j 0, 0)` of the index array. -/
theorem segDims_siIdx (wf) (j : (⟨1, ![E]⟩ : Shape).Idx) :
    (segDims N E wf).siIdx j ⟨List.idxOf (0 : Fin 1) (segDims N E wf).scatterDimsToOperandDims,
      List.idxOf_lt_length_iff.2 (segDims_zero_mem wf)⟩ = ix2 (j 0) (0 : Fin 1) := by
  funext b; refine Fin.ext ?_
  match b with
  | ⟨0, _⟩ => rfl
  | ⟨1, _⟩ => rfl

/-- The window's start on the operand's axis is that word, read signed. -/
theorem segDims_start (wf) (idx : IVec ⟨2, ![E, 1]⟩ w) (j : (⟨1, ![E]⟩ : Shape).Idx) (a : Fin 1) :
    (segDims N E wf).start j idx a = (idx (ix2 (j 0) (0 : Fin 1))).toInt := by
  obtain rfl : a = 0 := Subsingleton.elim _ _
  unfold ScatterDims.start
  rw [dif_pos (segDims_zero_mem wf), segDims_siIdx]
  rfl

/-- The window coordinate on the operand's axis is zero: the axis is inserted. -/
theorem segDims_window (wf) (j : (⟨1, ![E]⟩ : Shape).Idx) (a : Fin 1) :
    (segDims N E wf).window j a = 0 := by
  unfold ScatterDims.window
  rw [dif_neg]
  rw [segDims_sKept]; exact List.not_mem_nil

/-- An update lands at entry `n` exactly when its index word, read signed, is `n`: a word below zero or at least
    `N` lands nowhere, and `n` itself is in range. -/
theorem segDims_resultIdx?_iff (wf) (idx : IVec ⟨2, ![E, 1]⟩ w) (j : (⟨1, ![E]⟩ : Shape).Idx) (n : Fin N) :
    (segDims N E wf).resultIdx? j idx = some (ix1 n) ↔ (idx (ix2 (j 0) (0 : Fin 1))).toInt = (n.val : ℤ) := by
  have hval : ∀ a, (segDims N E wf).start j idx a + ((segDims N E wf).window j a : ℤ)
      = (idx (ix2 (j 0) (0 : Fin 1))).toInt := by
    intro a; rw [segDims_start, segDims_window]; simp
  have hsize : ∀ a : Fin 1, (((⟨1, ![N]⟩ : Shape).size a : ℕ) : ℤ) = (N : ℤ) := by
    intro a; obtain rfl : a = 0 := Subsingleton.elim _ _; rfl
  have hn : (n.val : ℤ) < (N : ℤ) := by exact_mod_cast n.isLt
  unfold ScatterDims.resultIdx?
  split
  · rename_i h
    constructor
    · intro he
      have h1 := congrArg Fin.val (congrFun (Option.some.inj he) 0)
      have h0 := (h 0).1
      simp only [hval] at h1 h0
      change (idx (ix2 (j 0) (0 : Fin 1))).toInt.toNat = n.val at h1
      omega
    · intro he
      refine congrArg some ?_
      funext a
      obtain rfl : a = 0 := Subsingleton.elim _ _
      refine Fin.ext ?_
      change ((segDims N E wf).start j idx 0 + ((segDims N E wf).window j 0 : ℤ)).toNat = n.val
      rw [hval, he]; simp
  · rename_i h
    constructor
    · intro he; exact absurd he (by simp)
    · intro he
      exfalso; apply h
      intro a
      rw [hval, he, hsize]
      omega

open Classical in
/-- Entry `n` of the accumulating scatter: the operand's entry plus the updates whose index word is `n`. -/
theorem scatterAdd_segments_apply (d : ScatterDims (⟨1, ![N]⟩ : Shape) ⟨2, ![E, 1]⟩ ⟨1, ![E]⟩)
    (hu : d.updateWindowDims = []) (hi : d.insertedWindowDims = [(0 : Fin 1)])
    (hs : d.scatterDimsToOperandDims = [(0 : Fin 1)]) (hv : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e : Fin E, if (idx (ix2 e (0 : Fin 1))).toInt = (n.val : ℤ) then upd (ix1 e) else 0 := by
  -- Fix the four lists: the dimension numbers are then the ones above.
  obtain ⟨uw, iw, sd, iv, wf⟩ := d
  simp only at hu hi hs hv
  subst hu hi hs hv
  unfold Host.scatterAdd
  rw [Ideal.hostScatterAdd_def]
  unfold Ideal.hostScatterAdd
  refine congrArg (x (ix1 n) + ·) ?_
  -- The sum over the updates that land at `n` is the sum over all updates of the update or zero,
  -- re-indexed from rank-1 indices to their coordinate.
  rw [Finset.sum_filter]
  refine Fintype.sum_equiv ⟨fun i => i 0, ix1, fun i => (eq_ix1 i).symm, fun _ => rfl⟩ _ _ (fun j => ?_)
  exact if_congr (segDims_resultIdx?_iff wf idx j n) (congrArg upd (eq_ix1 j)) rfl

end Idealize.ShloMosaic.SegmentScatter

end
-- ==== Proof.RefValue.lean ====
/-
  What the reference computes, read off its run.

  The reference gives every pixel a segment id: its target truncated toward zero to a 32-bit integer where the
  mask word is 1, the dummy segment 10 elsewhere. It flattens the [64, 512, 512] arrays row-major, adds each
  pixel's squared error (and, for the counts, the constant 1) into entry "segment id" of an eleven-vector by
  an accumulating scatter that drops ids outside 0 … 10, and keeps entries 0 … 9. So entry `k` of its sums is
  the sum of the squared errors of the pixels whose segment id, read as a signed integer, is `k`, and entry `k`
  of its counts their number; the row-major flattening is a bijection of the pixels and only renames the
  summation index. Its three results are the shared epilogue of those two ten-vectors.
-/
import proofs.«142523_j80736795230576_2_alg».proof.Proof.RefRead
import proofs.«142523_j80736795230576_2_alg».proof.Proof.HistSpec
import proofs.«142523_j80736795230576_2_alg».proof.Proof.HistTail
import proofs.«142523_j80736795230576_2_alg».proof.Proof.LibSegmentScatter
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Cert.Hist
open Idealize.ShloMosaic Idealize.ShloMosaic.TcCoe Idealize.SL.Sem Idealize.ShloMosaic.ValueIdx

/-- A pixel's segment id: the truncated target where the mask word is 1, the dummy segment 10 elsewhere. -/
def segId (t : EReal) (mw : BitVec 32) : BitVec 32 := if mw = 1#32 then Ideal.fptosi 32 t else 10#32

open Classical in
/-- Entry `k` of the reference's sums: the squared errors of the pixels of segment `k`. -/
def segSums (o t : SArr.Idx → EReal) (mk : SArr.Idx → BitVec 32) : SCls.Idx → EReal :=
  fun i => ∑ p : SArr.Idx, if (segId (t p) (mk p)).toInt = (((i 0).val : ℕ) : ℤ) then sqErr (o p) (t p) else 0

open Classical in
/-- Entry `k` of the reference's counts: the number of pixels of segment `k`. -/
def segCnts (t : SArr.Idx → EReal) (mk : SArr.Idx → BitVec 32) : SCls.Idx → EReal :=
  fun i => ∑ p : SArr.Idx, if (segId (t p) (mk p)).toInt = (((i 0).val : ℕ) : ℤ) then 1 else 0

/-- A rank-1 index is its one coordinate. -/
def idx1Equiv (n : Nat) : Fin n ≃ (⟨1, ![n]⟩ : Shape).Idx where
  toFun := ix1
  invFun j := j 0
  left_inv _ := rfl
  right_inv j := (eq_ix1 j).symm

/-- The row-major flattening of the pixels: position `e` of the flat array is the pixel with that row-major position.
    A bijection, so a sum over the positions is the sum over the pixels. -/
def flat : Fin 16777216 ≃ S64x512x512.Idx :=
  (idx1Equiv 16777216).trans (Shape.reshapeEquiv shapeCasts_S64x512x512_S16777216)

/-- The flattened array at position `e` is the array at the pixel `flat e`. -/
theorem shapeCast_flat {α : Type} (x : S64x512x512.Idx → α) (e : Fin 16777216) :
    shapeCast S16777216 x shapeCasts_S64x512x512_S16777216 (ix1 e) = x (flat e) := rfl

/-- The select on "the mask word equals 1" is the `if` on that equation. -/
theorem select_cmpi_eq_one {α : Type} (a : BitVec 32) (x y : α) :
    Scalar.select (IntOp.cmpi .eq a 1#32) x y = if a = 1#32 then x else y := by
  unfold Scalar.select IntOp.cmpi
  by_cases h : a = 1#32
  · subst h; rfl
  · rw [if_neg h]
    have hb : (a == 1#32) = false := by simpa using h
    simp only [hb]
    rfl

/-- The reference's segment ids read at a pixel. -/
theorem ids_apply (t : FVec Ideal S64x512x512 .f32) (mk : IVec S64x512x512 32) (p : S64x512x512.Idx) :
    select (cmpi .eq mk (broadcastInDim S64x512x512 ![] bcast_S_S64x512x512 (constantI S_ 32 1#32))) (fptosi 32 t)
        (broadcastInDim S64x512x512 ![] bcast_S_S64x512x512 (id (constantI S_ 32 10#32))) p
      = segId (t p) (mk p) :=
  select_cmpi_eq_one (mk p) (Ideal.fptosi 32 (t p)) 10#32

open Classical in
/-- The accumulating scatter of a flattened array of updates `u` at the flattened ids, from the zero eleven-vector,
    kept to entries 0 … 9: entry `k` is the sum of `u` over the pixels whose id, read signed, is `k`. -/
theorem scatter_flat (ids : IVec S64x512x512 32) (u : FVec Ideal S64x512x512 .f32) (k : S10.Idx) :
    extractStridedSlice S10 ![0] (Host.scatterAdd scatter_S11_S16777216x1_S16777216_n_0_0_1
        (broadcastInDim S11 ![] bcast_S_S11 (constant S_ .f32 0x00000000#32))
        (broadcastInDim S16777216x1 ![0] bcast_S16777216_S16777216x1_0 (shapeCast _ ids shapeCasts_S64x512x512_S16777216))
        (shapeCast _ u shapeCasts_S64x512x512_S16777216)) slices_S11_S10_0 k
      = ∑ p : S64x512x512.Idx, if (ids p).toInt = (((k 0).val : ℕ) : ℤ) then u p else 0 := by
  have hk : (k 0).val < 11 := by have h0 : (k 0).val < 10 := (k 0).isLt; omega
  rw [extractStridedSlice_apply ![0] _ slices_S11_S10_0 k (ix1 ⟨(k 0).val, hk⟩) (fun a => match a with
    | ⟨0, _⟩ => by show (k 0).val = 0 + (k 0).val; omega)]
  rw [SegmentScatter.scatterAdd_segments_apply _ rfl rfl rfl rfl]
  have h0 : broadcastInDim S11 ![] bcast_S_S11 (constant (F := Ideal) S_ .f32 0x00000000#32) (ix1 ⟨(k 0).val, hk⟩) = 0 :=
    Ideal.ofBits_zero_f32
  rw [h0, zero_add, ← Equiv.sum_comp flat (fun p => if (ids p).toInt = (((k 0).val : ℕ) : ℤ) then u p else 0)]
  refine Finset.sum_congr rfl fun e _ => ?_
  have hi : broadcastInDim S16777216x1 ![0] bcast_S16777216_S16777216x1_0
      (shapeCast S16777216 ids shapeCasts_S64x512x512_S16777216) (ix2 e 0) = ids (flat e) :=
    broadcastInDim_apply _ bcast_S16777216_S16777216x1_0 _ (ix2 e 0) (ix1 e) (fun a => match a with
      | ⟨0, _⟩ => by show e.val = if (16777216 : Nat) = 1 then 0 else e.val; rw [if_neg (by decide)])
  rw [hi, shapeCast_flat]

/-- The reference's ten sums are the segment sums of its arguments. -/
theorem sums_eq (o t : FVec Ideal S64x512x512 .f32) (mk : IVec S64x512x512 32) :
    extractStridedSlice S10 ![0] (Host.scatterAdd scatter_S11_S16777216x1_S16777216_n_0_0_1 (broadcastInDim S11 ![] bcast_S_S11 (constant S_ .f32 0x00000000#32)) (broadcastInDim S16777216x1 ![0] bcast_S16777216_S16777216x1_0 (shapeCast _ (select (cmpi .eq mk (broadcastInDim S64x512x512 ![] bcast_S_S64x512x512 (constantI S_ 32 1#32))) (fptosi 32 t) (broadcastInDim S64x512x512 ![] bcast_S_S64x512x512 (id (constantI S_ 32 10#32)))) shapeCasts_S64x512x512_S16777216)) (shapeCast _ (mulf (subf o t) (subf o t)) shapeCasts_S64x512x512_S16777216)) slices_S11_S10_0
      = segSums o t mk := by
  funext k
  rw [scatter_flat]
  exact Finset.sum_congr rfl fun p _ => by rw [ids_apply]; rfl

/-- The reference's ten counts are the segment counts of its arguments. -/
theorem cnts_eq (t : FVec Ideal S64x512x512 .f32) (mk : IVec S64x512x512 32) :
    extractStridedSlice S10 ![0] (Host.scatterAdd scatter_S11_S16777216x1_S16777216_n_0_0_1 (broadcastInDim S11 ![] bcast_S_S11 (constant S_ .f32 0x00000000#32)) (broadcastInDim S16777216x1 ![0] bcast_S16777216_S16777216x1_0 (shapeCast _ (select (cmpi .eq mk (broadcastInDim S64x512x512 ![] bcast_S_S64x512x512 (constantI S_ 32 1#32))) (fptosi 32 t) (broadcastInDim S64x512x512 ![] bcast_S_S64x512x512 (id (constantI S_ 32 10#32)))) shapeCasts_S64x512x512_S16777216)) (shapeCast _ (broadcastInDim S64x512x512 ![] bcast_S_S64x512x512 (constant (F := Ideal) S_ .f32 0x3F800000#32)) shapeCasts_S64x512x512_S16777216)) slices_S11_S10_0
      = segCnts t mk := by
  funext k
  rw [scatter_flat]
  exact Finset.sum_congr rfl fun p _ => by rw [ids_apply]; exact if_congr Iff.rfl Ideal.ofBits_one_f32 rfl

/-- The reference's run at the exact instance: its three results are the shared epilogue of the segment sums and
    counts of its argument arrays, which end unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
          = tailLoss (F := Ideal) (segSums (m ((c.tc : Thread nD τ).loc main_arg0)) (m ((c.tc : Thread nD τ).loc main_arg1)) (m ((c.tc : Thread nD τ).loc main_arg2)))
              (segCnts (m ((c.tc : Thread nD τ).loc main_arg1)) (m ((c.tc : Thread nD τ).loc main_arg2)))
      ∧ r.2.mem ((c.tc : Thread nD τ).loc main_v23)
          = tailEach (F := Ideal) (segSums (m ((c.tc : Thread nD τ).loc main_arg0)) (m ((c.tc : Thread nD τ).loc main_arg1)) (m ((c.tc : Thread nD τ).loc main_arg2)))
              (segCnts (m ((c.tc : Thread nD τ).loc main_arg1)) (m ((c.tc : Thread nD τ).loc main_arg2)))
      ∧ r.2.mem ((c.tc : Thread nD τ).loc main_v17)
          = segCnts (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2.1.trans (cnts_eq _ _),
    (h c).2.2.2⟩) (Cert.ReferenceIdeal.ValueP.run (F := Ideal) m ρ)
  · rw [sums_eq, cnts_eq]; rfl
  · rw [sums_eq, cnts_eq]; rfl

end Cert.ReferenceIdeal.RefValue

end
-- ==== Proof.HistPre.lean ====
/-
  What the precondition says of the targets, and why it joins the two programs.

  The precondition's last conjunct is "every target equals its floor", and with finiteness this makes every
  target an integer. For an integer `n`, truncation toward zero gives `n` back (clamped to the 32-bit range),
  so the truncated target is the class number `k` (0 … 9, well inside the range) exactly when the target IS the
  class value `k`: the reference's segment test and the kernel's equality test pick the same pixels.
-/
import proofs.«142523_j80736795230576_2_alg».proof.Pre_finite_inputs
import proofs.«142523_j80736795230576_2_alg».proof.Proof.Gen.Pre_finite_inputs
import Idealize.ShloMosaic.Lib.ReduceAll
import Idealize.ShloMosaic.Lib.StableHlo.Predicate
import proofs.«142523_j80736795230576_2_alg».proof.Proof.HistSpec

noncomputable section

namespace Cert.Hist

open Idealize.ShloMosaic

/-- Under the precondition every target is an integer (a finite real equal to its floor). -/
theorem target_integral [Cert.Pre_finite_inputs.Facts] (o t : FVec Ideal SArr .f32) (mk : IVec SArr 32)
    (h : Cert.Pre_finite_inputs.fn (F := Ideal) o t mk = fun _ => 1#1) (p : SArr.Idx) :
    ∃ n : ℤ, t p = ((n : ℝ) : EReal) := by
  -- the scalar result has a single index
  haveI : Subsingleton Cert.Pre_finite_inputs.S_.Idx := ⟨fun a b => funext fun d => d.elim0⟩
  have h0 := congrFun h ValueIdx.ix0
  dsimp only [Cert.Pre_finite_inputs.fn] at h0
  -- the conjunction of the three "for all pixels" facts; the second and the third speak of the targets
  obtain ⟨h12, h3⟩ := IntOp.andi_eq_one.1 h0
  obtain ⟨_, h2⟩ := IntOp.andi_eq_one.1 h12
  -- at the pixel p: |t p| < +∞, and t p equals its floor
  have hfin : Ideal.cmp .olt (max (t p) (-(t p))) (Ideal.ofBits .f32 0x7F800000#32) = 1#1 :=
    Host.reduce_andi_all _ _ _ _ _ h2 p
  have hflo : Ideal.cmp .oeq (t p) (Ideal.liftRound Int.floor (t p)) = 1#1 :=
    Host.reduce_andi_all _ _ _ _ _ h3 p
  have htop : Ideal.ofBits .f32 0x7F800000#32 = (⊤ : EReal) := by simp [Ideal.ofBits, Ideal.ieee]
  rw [htop] at hfin
  simp only [Ideal.cmp, StableHlo.Predicate.ofBool_eq_one_iff, decide_eq_true_eq] at hfin hflo
  -- an infinite target has |t p| = +∞; a real target r equals ⌊r⌋
  generalize t p = x at hfin hflo ⊢
  induction x using EReal.rec with
  | bot => simp at hfin
  | coe r => exact ⟨⌊r⌋, hflo⟩
  | top => simp at hfin

/-- The class value `k.0` is the real number `k`. -/
theorem classVal_eq (k : Fin 10) : classVal k = (((k.val : ℕ) : ℝ) : EReal) := by
  -- each of the ten words is a normal f32 (or +0.0): sign 0, the exponent and significand of k
  fin_cases k <;>
    (simp [classVal, classWord, Ideal.ofBits, Ideal.ieee, -EReal.coe_mul]; try norm_num)

/-- Truncating the integer `n` to a signed 32-bit word gives `n` clamped to the 32-bit range: floor and ceiling
    of an integer are the integer, and the clamped value is its own balanced residue mod 2³². -/
theorem toInt_fptosi_intCast (n : ℤ) :
    (Ideal.fptosi 32 ((n : ℝ) : EReal)).toInt = max (-2147483648) (min 2147483647 n) := by
  have hif : (if (0 : ℝ) ≤ (n : ℝ) then ⌊(n : ℝ)⌋ else ⌈(n : ℝ)⌉) = n := by
    split <;> simp
  rw [Ideal.fptosi, Ideal.toIntClamped_coe, hif, BitVec.toInt_ofInt]
  have e1 : ((2 ^ (32 - 1) : ℕ) : ℤ) = 2147483648 := by norm_num
  rw [e1, show (2147483648 : ℤ) - 1 = 2147483647 by norm_num]
  exact Int.bmod_eq_of_le (by omega) (by omega)

/-- An integer target truncates to the class number `k` exactly when it is the class value `k`. -/
theorem fptosi_eq_class_iff (n : ℤ) (k : Fin 10) :
    (Ideal.fptosi 32 ((n : ℝ) : EReal)).toInt = ((k.val : ℕ) : ℤ) ↔ ((n : ℝ) : EReal) = classVal k := by
  rw [toInt_fptosi_intCast, classVal_eq, EReal.coe_eq_coe_iff]
  -- 0 ≤ k ≤ 9 lies strictly inside the clamp's range, so the clamp of n is k exactly when n is k
  have hk : ((k.val : ℕ) : ℤ) ≤ 9 := by have := k.isLt; omega
  have hk0 : (0 : ℤ) ≤ ((k.val : ℕ) : ℤ) := Int.natCast_nonneg _
  constructor
  · intro h
    have hn : n = ((k.val : ℕ) : ℤ) := by omega
    rw [hn]; push_cast; rfl
  · intro h
    have hn : n = ((k.val : ℕ) : ℤ) := by exact_mod_cast h
    omega

end Cert.Hist

end
-- ==== Proof.HistBridge.lean ====
/-
  Segments are classes when the targets are integers.

  A pixel's segment id is its truncated target where the mask word is 1, and 10 elsewhere. For an integer
  target the truncation is the target itself, so the id is the class number `k` (one of 0 … 9, never the dummy
  10) exactly when the mask word is 1 and the target is the class value `k`: the pixel is a hit of class `k`.
  Summing the same summands over the same pixels, the reference's segment sums and counts are the per-class hit
  sums and hit counts.
-/
import proofs.«142523_j80736795230576_2_alg».proof.Proof.RefValue
import proofs.«142523_j80736795230576_2_alg».proof.Proof.HistPre

noncomputable section

namespace Cert.Hist

open Idealize.ShloMosaic Cert.ReferenceIdeal.RefValue

/-- For an integer target: segment `k` exactly when the pixel is a hit of class `k`. -/
theorem seg_iff_hit (n : ℤ) (mw : BitVec 32) (k : Fin 10) :
    (segId ((n : ℝ) : EReal) mw).toInt = ((k.val : ℕ) : ℤ) ↔ (mw = 1#32 ∧ ((n : ℝ) : EReal) = classVal k) := by
  unfold segId
  by_cases hm : mw = 1#32
  · rw [if_pos hm, fptosi_eq_class_iff]
    exact ⟨fun h => ⟨hm, h⟩, fun h => h.2⟩
  · rw [if_neg hm]
    constructor
    · intro h
      exfalso
      have h10 : (10#32 : BitVec 32).toInt = 10 := by decide
      rw [h10] at h
      have := k.isLt
      omega
    · intro h
      exact absurd h.1 hm

/-- With integer targets the segment sums are the per-class hit sums. -/
theorem segSums_eq (o t : SArr.Idx → EReal) (mk : SArr.Idx → BitVec 32)
    (ht : ∀ p, ∃ n : ℤ, t p = ((n : ℝ) : EReal)) : segSums o t mk = classSums o t mk := by
  funext i
  unfold segSums classSums hitSum
  refine Finset.sum_congr rfl fun p _ => ?_
  obtain ⟨n, hn⟩ := ht p
  rw [hn]
  exact if_congr (seg_iff_hit n (mk p) (i 0)) rfl rfl

/-- And the segment counts the per-class hit counts. -/
theorem segCnts_eq (t : SArr.Idx → EReal) (mk : SArr.Idx → BitVec 32)
    (ht : ∀ p, ∃ n : ℤ, t p = ((n : ℝ) : EReal)) : segCnts t mk = classCnts t mk := by
  funext i
  unfold segCnts classCnts hitCnt
  refine Finset.sum_congr rfl fun p _ => ?_
  obtain ⟨n, hn⟩ := ht p
  rw [hn]
  exact if_congr (seg_iff_hit n (mk p) (i 0)) rfl rfl

end Cert.Hist

end
-- ==== Proof.lean ====
/-
  The masked per-class histogram loss: the kernel against its reference, over the extended reals.

  Both programs compute, for each of ten classes k, the sum S k of the squared errors (o − t)² and the number
  N k of the pixels whose mask word is 1 and whose target t belongs to class k, and then the same epilogue: the
  mean S k / max(N k, 1) where N k > 0 (else 0), and the total of the means weighted by 0.1.

  The kernel streams the [64, 512, 512] arrays in 32 blocks of two slabs. For every block and class it tests
  "mask word = 1 and target = k" per pixel, totals the selected squared errors (and the 0 / 1 indicators) of
  the block, and adds the total into lane k of a 1 × 128 accumulator that it zeroes at the first block and
  copies out after the last; lanes 0 … 9 of the two accumulators are S and N. The reference truncates each
  target to an integer, routes masked-out pixels to a dummy eleventh segment, and adds every pixel's squared
  error (and a 1) into the entry its segment names by one accumulating scatter.

  The two agree because the precondition makes every target an INTEGER: then "target truncates to k" and
  "target = k" pick the same pixels (a target outside 0 … 9 joins no class on either side: the scatter drops
  it, no equality test matches it). Without that conjunct they differ (a target 0.5 truncates to class 0 and
  equals no class). Sums over the extended reals may be re-ordered and re-grouped freely, so the kernel's
  order (lanes, rows, slabs, blocks) and the scatter's are the same sum, and the 32 blocks partition the
  pixels. No finiteness is used beyond reading "equal to its floor" as "integer".

  The pieces: the shared definitions (HistSpec, HistTail); one accumulator update at a lane (HistSteps,
  HistUpdates); the kernel's accumulators point by point and its run (KernelCases, KernelInvariant,
  KernelFinal, KernelClosed, over the block partition of HistBlocks); the accumulating scatter at an entry
  (LibSegmentScatter) and the reference's run (RefValue); the precondition and the bridge (HistPre,
  HistBridge). The three frames are the programs' runs with the results dropped; the idealization changed
  nothing, so its claim is trivial.
-/
import proofs.«142523_j80736795230576_2_alg».proof.Defs
import proofs.«142523_j80736795230576_2_alg».proof.Proof.Gen.Kernel
import proofs.«142523_j80736795230576_2_alg».proof.Proof.Gen.Kernel.Skeleton
import proofs.«142523_j80736795230576_2_alg».proof.Proof.Gen.Kernel.Launch
import proofs.«142523_j80736795230576_2_alg».proof.Proof.Gen.Kernel.Points
import proofs.«142523_j80736795230576_2_alg».proof.Proof.Gen.Kernel.Frame
import proofs.«142523_j80736795230576_2_alg».proof.Proof.Gen.KernelIdeal
import proofs.«142523_j80736795230576_2_alg».proof.Proof.Gen.KernelIdeal.Skeleton
import proofs.«142523_j80736795230576_2_alg».proof.Proof.Gen.KernelIdeal.Launch
import proofs.«142523_j80736795230576_2_alg».proof.Proof.Gen.KernelIdeal.Points
import proofs.«142523_j80736795230576_2_alg».proof.Proof.Gen.KernelIdeal.Frame
import proofs.«142523_j80736795230576_2_alg».proof.Proof.Gen.ReferenceIdeal
import proofs.«142523_j80736795230576_2_alg».proof.Proof.Gen.Pre_finite_inputs
import proofs.«142523_j80736795230576_2_alg».proof.Proof.KernelClosed
import proofs.«142523_j80736795230576_2_alg».proof.Proof.HistBridge
import Idealize.ShloMosaic.Adequacy
import Idealize.ShloMosaic.Init

noncomputable section

namespace Cert.Proof

open Idealize.ShloMosaic Idealize.SL.Sem Cert.Hist
open Cert.KernelIdeal.HistValue (oArr tArr mArr)

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.RefValue.ref_run m ρ)

/-- The idealization rewrote nothing. -/
theorem preserves : Cert.preserves_Kernel_KernelIdeal := trivial

/-- Both idealized programs end at the shared epilogue of the arrays' per-class hit sums and hit counts: the kernel by
    its accumulators' closed form, the reference because, the targets being integers, its segments are the classes. -/
theorem algebraic : Cert.algebraic_KernelIdeal_ReferenceIdeal := by
  intro m ρ m' ρ' hpre hagree
  refine ⟨fun c => tailLoss (F := Ideal) (classSums (oArr m c) (tArr m c) (mArr m c)) (classCnts (tArr m c) (mArr m c)),
    fun c => tailEach (F := Ideal) (classSums (oArr m c) (tArr m c) (mArr m c)) (classCnts (tArr m c) (mArr m c)),
    fun c => classCnts (tArr m c) (mArr m c), ?_, ?_⟩
  · refine (θ_run Cert.KernelIdeal.defs _ _).mono (fun _ h c => ?_)
      (Cert.KernelIdeal.HistValue.kernel_run (F := Ideal) m ρ)
    obtain ⟨h1, h2, h3, h4⟩ := h c
    rw [Cert.KernelIdeal.HistValue.sums_closed, Cert.KernelIdeal.HistValue.cnts_closed] at h1 h2
    rw [Cert.KernelIdeal.HistValue.cnts_closed] at h3
    exact ⟨h1, h2, h3, h4⟩
  · refine (θ_run Cert.ReferenceIdeal.defs _ _).mono (fun _ h c => ?_)
      (Cert.ReferenceIdeal.RefValue.ref_run m' ρ')
    obtain ⟨h1, h2, h3, h4⟩ := h c
    obtain ⟨a0, a1, a2⟩ := hagree c
    have ht : ∀ p, ∃ n : ℤ, tArr m c p = ((n : ℝ) : EReal) :=
      fun p => Cert.Hist.target_integral (oArr m c) (tArr m c) (mArr m c) (hpre c) p
    rw [a0, a1, a2] at h1 h2
    rw [a1, a2] at h3
    rw [show Cert.ReferenceIdeal.RefValue.segSums (oArr m c) (tArr m c) (mArr m c) = classSums (oArr m c) (tArr m c) (mArr m c)
        from segSums_eq _ _ _ ht,
      show Cert.ReferenceIdeal.RefValue.segCnts (tArr m c) (mArr m c) = classCnts (tArr m c) (mArr m c)
        from segCnts_eq _ _ ht] at h1 h2
    rw [show Cert.ReferenceIdeal.RefValue.segCnts (tArr m c) (mArr m c) = classCnts (tArr m c) (mArr m c)
        from segCnts_eq _ _ ht] at h3
    exact ⟨h1, h2, h3, h4⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
